-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S16384x1024 : Shape := ⟨2, ![16384, 1024]⟩
abbrev S1024 : Shape := ⟨1, ![1024]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  shapeCasts_S1x16384x1024_S16384x1024 : S1x16384x1024.ShapeCasts S16384x1024
  reducesTo_S16384x1024_S1024_d0 : S16384x1024.ReducesTo [0] S1024
  bcast_S_S1024 : S_.BroadcastsInDim S1024 (![] : Fin 0 → Fin S1024.rank)
  reducesTo_S1024_S_d0 : S1024.ReducesTo [0] S_

variable [Facts]

def fn_part3 {F : FTy → Type} [FloatOps F] (main_arg4 : FVec F S1x16384x1024 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S16384x1024 .f32 := shapeCast S16384x1024 main_arg4 shapeCasts_S1x16384x1024_S16384x1024
  let main_cst_20 : FVec F S_ .f32 := constant S_ .f32 0x00000000#32
  let main_v55 : FVec F S1024 .f32 := (fun x v => Host.reduceAdd x v reducesTo_S16384x1024_S1024_d0 h_S_) main_v54 main_cst_20
  let main_cst_21 : FVec F S_ .f32 := constant S_ .f32 0x00000000#32
  let main_v56 : FVec F S1024 .f32 := broadcastInDim S1024 ![] bcast_S_S1024 main_cst_21
  let main_v57 : IVec S1024 1 := cmpf .une main_v55 main_v56
  let main_c_22 : IVec S_ 1 := constantI S_ 1 1#1
  let main_v58 : IVec S_ 1 := (fun x v => Host.reduce IntOp.andi x v reducesTo_S1024_S_d0 h_S_) main_v57 main_c_22
  let main_v59 : IVec S_ 1 := andi main_v53 main_v58
  main_v59

def fn_part2 {F : FTy → Type} [FloatOps F] (main_arg4 : FVec F S1x16384x1024 .f32) (main_arg7 : FVec F S512x512 .f32) (main_arg8 : FVec F S512 .f32) (main_arg9 : FVec F S512x1 .f32) (main_arg10 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg4 main_v48 main_v49 main_v50

def fn_part1 {F : FTy → Type} [FloatOps F] (main_arg4 : FVec F S1x16384x1024 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) (main_v13 : IVec S_ 1) (main_v16 : IVec S1x16384x512 1) : IVec S_ 1 :=
  let main_c_5 : IVec S_ 1 := constantI S_ 1 1#1
  let main_v17 : IVec S_ 1 := (fun x v => Host.reduce IntOp.andi x v reducesTo_S1x16384x512_S_d0_1_2 h_S_) main_v16 main_c_5
  let main_v18 : IVec S_ 1 := andi main_v13 main_v17
  let main_v19 : FVec F S1x16384x1024 .f32 := Host.absf main_arg4
  let main_cst_6 : FVec F S_ .f32 := constant S_ .f32 0x7F800000#32
  let main_v20 : FVec F S1x16384x1024 .f32 := broadcastInDim S1x16384x1024 ![] bcast_S_S1x16384x1024 main_cst_6
  let main_v21 : IVec S1x16384x1024 1 := cmpf .olt main_v19 main_v20
  let main_c_7 : IVec S_ 1 := constantI S_ 1 1#1
  let main_v22 : IVec S_ 1 := (fun x v => Host.reduce IntOp.andi x v reducesTo_S1x16384x1024_S_d0_1_2 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg4 main_arg7 main_arg8 main_arg9 main_arg10 main_v33

def fn {F : FTy → Type} [FloatOps F] (main_arg0 : FVec F S1x16384x512 .f32) (main_arg1 : FVec F S1x16384x512 .f32) (main_arg2 : FVec F S1x16384x512 .f32) (main_arg3 : FVec F S1x16384x512 .f32) (main_arg4 : FVec F S1x16384x1024 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S1x16384x512 .f32 := Host.absf main_arg2
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  let main_c_3 : IVec S_ 1 := constantI S_ 1 1#1
  let main_v12 : IVec S_ 1 := (fun x v => Host.reduce IntOp.andi x v reducesTo_S1x16384x512_S_d0_1_2 h_S_) main_v11 main_c_3
  let main_v13 : IVec S_ 1 := andi main_v8 main_v12
  let main_v14 : FVec F S1x16384x512 .f32 := Host.absf main_arg3
  let main_cst_4 : FVec F S_ .f32 := constant S_ .f32 0x7F800000#32
  let main_v15 : FVec F S1x16384x512 .f32 := broadcastInDim S1x16384x512 ![] bcast_S_S1x16384x512 main_cst_4
  let main_v16 : IVec S1x16384x512 1 := cmpf .olt main_v14 main_v15
  fn_part1 (F := F) main_arg4 main_arg5 main_arg6 main_arg7 main_arg8 main_arg9 main_arg10 main_v13 main_v16
-- ==== Kernel.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S16384x512 : Shape := ⟨2, ![16384, 512]⟩
abbrev S16384x1024 : Shape := ⟨2, ![16384, 1024]⟩
abbrev S1x512 : Shape := ⟨2, ![1, 512]⟩
abbrev S1x1 : Shape := ⟨2, ![1, 1]⟩
abbrev S1024x4 : Shape := ⟨2, ![1024, 4]⟩
abbrev S1024x1 : Shape := ⟨2, ![1024, 1]⟩
abbrev S2048x512 : Shape := ⟨2, ![2048, 512]⟩
abbrev S2048x1024 : Shape := ⟨2, ![2048, 1024]⟩
abbrev S2048x1 : Shape := ⟨2, ![2048, 1]⟩
abbrev S2048x4 : Shape := ⟨2, ![2048, 4]⟩

abbrev nBuf : Space → Nat
  | .hbm => 22
  | .vmem => 17
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S1x512, .f32⟩
  | .hbm, ⟨17, _⟩ => ⟨S1x512, .f32⟩
  | .hbm, ⟨18, _⟩ => ⟨S1x1, .f32⟩
  | .hbm, ⟨19, _⟩ => ⟨S1024x4, .f32⟩
  | .hbm, ⟨20, _⟩ => ⟨S1024x1, .f32⟩
  | .hbm, ⟨21, _⟩ => ⟨S1024x1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x1024, .f32⟩
  | .local _ .vmem, ⟨9, _⟩ => ⟨S2048x1024, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x1, .f32⟩
  | .local _ .vmem, ⟨15, _⟩ => ⟨S1x1, .f32⟩
  | .local _ .vmem, ⟨16, _⟩ => ⟨S1024x4, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S1x16384x512_S16384x512 : S1x16384x512.ShapeCasts S16384x512
  shapeCasts_S1x16384x1024_S16384x1024 : S1x16384x1024.ShapeCasts S16384x1024
  shapeCasts_S512_S1x512 : S512.ShapeCasts S1x512
  shapeCasts_S1_S1x1 : S1.ShapeCasts S1x1
  slices_S1024x4_S1024x1_0_0 : S1024x4.Slices ![0, 0] S1024x1
  slices_S1024x4_S1024x1_0_1 : S1024x4.Slices ![0, 1] S1024x1
  inb_S1024x4_S1024x4_0_0 : ∀ a, (![0, 0] : Fin 2 → Nat) a + S1024x4.size a ≤ S1024x4.size a
  h_S1024x4 : 0 < S1024x4.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  concatenates_S2048x1_S2048x1_S2048x1_S2048x1_S2048x4_d1 : Shape.Concatenates [S2048x1, S2048x1, S2048x1, S2048x1] S2048x4 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x4_S1024x4 : S1024x4.ShapeCasts S1024x4
  slices_S1024x4_o0_2_S1024x1 : S1024x4.Slices ![0, 2] S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S1024x4_o0_0_S1024x1 : S1024x4.Slices ![0, 0] S1024x1
  slices_S1024x4_o0_1_S1024x1 : S1024x4.Slices ![0, 1] S1024x1
  concatenates_S1024x1_S1024x1_S1024x1_S1024x1_S1024x4_d1 : Shape.Concatenates [S1024x1, S1024x1, S1024x1, S1024x1] S1024x4 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  dot_S2048x1024_S2048x4_S1024x4_0_0_1_1_n_n_wf : DotDims.WF S2048x1024 S2048x4 S1024x4 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x4.size a ≤ S1024x4.size a
  hwx0_11 : ∀ i : grid0.Coords, EltTy.bits .f32 = 32 ∨ (Rect.block (s := S1024x4) S1024x4.size (cc0_transform_11 i) (hinb0_11 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S2048x1024_S2048x4_S1024x4_0_0_1_1_n_n : DotDims S2048x1024 S2048x4 S1024x4 where
  lhsContracting := [0]
  rhsContracting := [0]
  lhsNonContracting := [1]
  rhsNonContracting := [1]
  lhsBatch := []
  rhsBatch := []
  wf := dot_S2048x1024_S2048x4_S1024x4_0_0_1_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v7) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8) S1024x4.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S16384x512 : Shape := ⟨2, ![16384, 512]⟩
abbrev S1x512 : Shape := ⟨2, ![1, 512]⟩
abbrev S1024x16384 : Shape := ⟨2, ![1024, 16384]⟩
abbrev S1024x512 : Shape := ⟨2, ![1024, 512]⟩
abbrev S1024x1 : Shape := ⟨2, ![1024, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16384x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S1024x16384, .f32⟩
  | .hbm, ⟨32, _⟩ => ⟨S1024x512, .f32⟩
  | .hbm, ⟨33, _⟩ => ⟨S1024x1, .f32⟩
  | .hbm, ⟨34, _⟩ => ⟨S1x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S1024x16384, .f32⟩
  | .hbm, ⟨60, _⟩ => ⟨S1024x512, .f32⟩
  | .hbm, ⟨61, _⟩ => ⟨S1024x1, .f32⟩
  | .hbm, ⟨62, _⟩ => ⟨S1x1, .f32⟩
  | .hbm, ⟨63, _⟩ => ⟨S1024x1, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  shapeCasts_S1x16384x1024_S16384x1024 : S1x16384x1024.ShapeCasts S16384x1024
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S1x16384x512_S16384x512 : S1x16384x512.ShapeCasts S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S16384x1024_S1024x16384_1_0 : S16384x1024.Transposes [1, 0] S1024x16384
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S16384x512_S512x512_S16384x512_1_0_0_1_n_n_wf : DotDims.WF S16384x512 S512x512 S16384x512 [1] [0] [0] [1] [] []
  dot_S1024x16384_S16384x512_S1024x512_1_0_0_1_n_n_wf : DotDims.WF S1024x16384 S16384x512 S1024x512 [1] [0] [0] [1] [] []
  dot_S1024x512_S512x1_S1024x1_1_0_0_1_n_n_wf : DotDims.WF S1024x512 S512x1 S1024x1 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S1024x16384_S16384x512_S1024x512_1_0_0_1_n_n : DotDims S1024x16384 S16384x512 S1024x512 where
  lhsContracting := [1]
  rhsContracting := [0]
  lhsNonContracting := [0]
  rhsNonContracting := [1]
  lhsBatch := []
  rhsBatch := []
  wf := dot_S1024x16384_S16384x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

class Facts : Prop extends Facts₀ where

variable [Facts]
-- ==== Proof.NhpSpec.lean ====
/-
  Both programs as formulas over matrices of extended reals.

  A node n has a feature row and a neighbourhood row; its hidden vector is
  relu(feat·W_self + mat·W_hyper + biases); a hyperlink h averages the hidden vectors of its
  nodes with the weights of column h of the incidence matrix, projects the average on the score
  vector and squashes it by the logistic function.

  The kernel projects FIRST (one scalar per node, `scK`), sums the weighted scalars and the
  weights themselves over eight blocks of 2048 rows (`accK`), and divides the two sums at the
  end (`scoreK`). The reference divides every weight by its column sum first, averages the
  hidden VECTORS and projects last (`scoreR`). The two groupings of the bias sum differ as well.
  Over the reals the two agree wherever the column sum is not zero: `Nhp.bridge` (proved in
  NhpBridge.lean).
-/
import Idealize.ShloMosaic.PureOps.Ideal
import Idealize.ShloMosaic.Lib.ValueIdx

noncomputable section

open scoped BigOperators

namespace Nhp

open Idealize.ShloMosaic Idealize.ShloMosaic.ValueIdx

/-- An a × b matrix of extended reals. -/
abbrev Mat (a b : ℕ) := Fin a → Fin b → EReal

/-- Row r of row block b: the rows come in eight blocks of 2048. -/
def rowOf (b : Fin 8) (r : Fin 2048) : Fin 16384 := ⟨b.val * 2048 + r.val, by omega⟩

/-- An array of shape [1, a, b] read as a matrix. -/
def mat3 {a b : ℕ} (x : (⟨3, ![1, a, b]⟩ : Shape).Idx → EReal) : Mat a b := fun n k => x (ix3 0 n k)
/-- An array of shape [a, b] read as a matrix. -/
def mat2 {a b : ℕ} (x : (⟨2, ![a, b]⟩ : Shape).Idx → EReal) : Mat a b := fun n k => x (ix2 n k)
/-- An array of shape [a] read as a vector. -/
def vec1 {a : ℕ} (x : (⟨1, ![a]⟩ : Shape).Idx → EReal) : Fin a → EReal := fun k => x (ix1 k)
/-- An array of shape [a, 1] read as a vector. -/
def col {a : ℕ} (x : (⟨2, ![a, 1]⟩ : Shape).Idx → EReal) : Fin a → EReal := fun k => x (ix2 k 0)

section

variable (feat mat : Mat 16384 512) (Ws Wh : Mat 512 512) (bs bh : Fin 512 → EReal) (Wsc : Fin 512 → EReal)
  (bm : Mat 16384 1024) (bsc : EReal)

/-- The kernel's hidden unit d of node n: the two products summed, then the summed biases. -/
def hidK (n : Fin 16384) (d : Fin 512) : EReal :=
  max (((∑ k, feat n k * Ws k d) + (∑ k, mat n k * Wh k d)) + (bs d + bh d)) 0

/-- The kernel's scalar of node n: its hidden vector projected on the score vector. -/
def scK (n : Fin 16384) : EReal := ∑ d, hidK feat mat Ws Wh bs bh n d * Wsc d

/-- Column h of the incidence matrix against a per-node scalar, summed block by block. -/
def accK (s : Fin 16384 → EReal) (h : Fin 1024) : EReal :=
  ∑ b : Fin 8, ∑ r : Fin 2048, bm (rowOf b r) h * s (rowOf b r)

/-- The kernel's score of hyperlink h: weighted sum of scalars over the sum of weights, plus the bias, squashed. -/
def scoreK (h : Fin 1024) : EReal :=
  Ideal.logistic (Ideal.div (accK bm (scK feat mat Ws Wh bs bh Wsc) h) (accK bm (fun _ => 1) h) + bsc)

/-- The reference's hidden unit d of node n: each product with its own bias, then summed. -/
def hidR (n : Fin 16384) (d : Fin 512) : EReal :=
  max (((∑ k, feat n k * Ws k d) + bs d) + ((∑ k, mat n k * Wh k d) + bh d)) 0

/-- Column h of the incidence matrix summed. -/
def colsum (h : Fin 1024) : EReal := ∑ n, bm n h

/-- The reference's score of hyperlink h: the normalised weights average the hidden vectors, the average is projected. -/
def scoreR (h : Fin 1024) : EReal :=
  Ideal.logistic ((∑ d, (∑ n, Ideal.div (bm n h) (colsum bm h) * hidR feat mat Ws Wh bs bh n d) * Wsc d) + bsc)

end

/-! ## The two results as arrays -/

section

variable (feat mat : (⟨3, ![1, 16384, 512]⟩ : Shape).Idx → EReal) (mask : (⟨3, ![1, 16384, 1024]⟩ : Shape).Idx → EReal)
  (wSelf : (⟨2, ![512, 512]⟩ : Shape).Idx → EReal) (bSelf : (⟨1, ![512]⟩ : Shape).Idx → EReal)
  (wHyper : (⟨2, ![512, 512]⟩ : Shape).Idx → EReal) (bHyper : (⟨1, ![512]⟩ : Shape).Idx → EReal)
  (wScore : (⟨2, ![512, 1]⟩ : Shape).Idx → EReal) (bScore : (⟨1, ![1]⟩ : Shape).Idx → EReal)

/-- The kernel's [1024, 1] result for one branch, from the argument arrays. -/
def resK : (⟨2, ![1024, 1]⟩ : Shape).Idx → EReal := fun i =>
  scoreK (mat3 feat) (mat3 mat) (mat2 wSelf) (mat2 wHyper) (vec1 bSelf) (vec1 bHyper) (col wScore) (mat3 mask) (bScore (ix1 0)) (i 0)

/-- The reference's [1024, 1] result for one branch, from the argument arrays. -/
def resR : (⟨2, ![1024, 1]⟩ : Shape).Idx → EReal := fun i =>
  scoreR (mat3 feat) (mat3 mat) (mat2 wSelf) (mat2 wHyper) (vec1 bSelf) (vec1 bHyper) (col wScore) (mat3 mask) (bScore (ix1 0)) (i 0)

end

end Nhp

end
-- ==== Proof.KBlocks.lean ====
/-
  What each window's block holds at a grid point, in terms of the argument arrays.

  The four feature windows and the incidence window walk down the rows in blocks of 2048: entry (r, k) of the
  block at point t is entry (2048·t + r, k) of the argument (whose leading unit axis a reshape drops before the
  call). The weight windows are the whole weight arrays at every point, and the two bias rows and the score bias
  are the rank-one arguments laid out as one row.
-/
import proofs.«140477_g5806795784444_cont_9to1c4b_204_8_alg».proof.Proof.Gen.KernelIdeal.Frame
import proofs.«140477_g5806795784444_cont_9to1c4b_204_8_alg».proof.Proof.NhpSpec
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- The block number of a grid point. -/
abbrev blkOf (t : Fin cfg0.N) : Fin 8 := t.cast N_0

theorem V_v0 (c : Dev nD) : (V m c main_call0_v0 : S16384x512.Idx → EReal)
    = shapeCast S16384x512 (m ((c : Thread nD τ).loc main_arg0)) shapeCasts_S1x16384x512_S16384x512 := by
  show StableHlo.after hostOps0 (fun b => m (c, b)) (Proc.devRef .tc main_call0_v0) = _
  after_results
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, k) of window 0's block at point t is entry (2048·t + r, k) of argument 0. -/
theorem blk0 (c : Dev nD) (t : Fin cfg0.N) (r : Fin 2048) (k : Fin 512) :
    (iblk m c 0 t : Vec Ideal S2048x512 .f32) (ix2 r k)
      = Nhp.mat3 (m ((c : Thread nD τ).loc main_arg0)) (Nhp.rowOf (blkOf t) r) k := by
  unfold iblk
  rw [View.read_apply]
  show V m c main_call0_v0 _ = _
  rw [V_v0]
  show _ = (m ((c : Thread nD τ).loc main_arg0)) (ix3 0 (Nhp.rowOf (blkOf t) r) k)
  refine shapeCast_apply _ _ _ (ix3 0 (Nhp.rowOf (blkOf t) r) k) ?_
  rw [Shape.rowMajor_val_three, Shape.rowMajor_val_two]
  show ((0 : ℕ) * 16384 + (t.val * 2048 + r.val)) * 512 + k.val
    = (win0_0.index t 0 * 2048 + 1 * r.val) * 512 + (win0_0.index t 1 * 512 + 1 * k.val)
  rw [(idx0 t).1, (idx0 t).2]
  omega

theorem V_v1 (c : Dev nD) : (V m c main_call0_v1 : S16384x512.Idx → EReal)
    = shapeCast S16384x512 (m ((c : Thread nD τ).loc main_arg1)) shapeCasts_S1x16384x512_S16384x512 := by
  show StableHlo.after hostOps0 (fun b => m (c, b)) (Proc.devRef .tc main_call0_v1) = _
  after_results
  rfl

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, k) of window 1's block at point t is entry (2048·t + r, k) of argument 1. -/
theorem blk1 (c : Dev nD) (t : Fin cfg0.N) (r : Fin 2048) (k : Fin 512) :
    (iblk m c 1 t : Vec Ideal S2048x512 .f32) (ix2 r k)
      = Nhp.mat3 (m ((c : Thread nD τ).loc main_arg1)) (Nhp.rowOf (blkOf t) r) k := by
  unfold iblk
  rw [View.read_apply]
  show V m c main_call0_v1 _ = _
  rw [V_v1]
  show _ = (m ((c : Thread nD τ).loc main_arg1)) (ix3 0 (Nhp.rowOf (blkOf t) r) k)
  refine shapeCast_apply _ _ _ (ix3 0 (Nhp.rowOf (blkOf t) r) k) ?_
  rw [Shape.rowMajor_val_three, Shape.rowMajor_val_two]
  show ((0 : ℕ) * 16384 + (t.val * 2048 + r.val)) * 512 + k.val
    = (win0_1.index t 0 * 2048 + 1 * r.val) * 512 + (win0_1.index t 1 * 512 + 1 * k.val)
  rw [(idx1 t).1, (idx1 t).2]
  omega

theorem V_v2 (c : Dev nD) : (V m c main_call0_v2 : S16384x512.Idx → EReal)
    = shapeCast S16384x512 (m ((c : Thread nD τ).loc main_arg2)) shapeCasts_S1x16384x512_S16384x512 := by
  show StableHlo.after hostOps0 (fun b => m (c, b)) (Proc.devRef .tc main_call0_v2) = _
  after_results
  rfl

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Entry (r, k) of window 2's block at point t is entry (2048·t + r, k) of argument 2. -/
theorem blk2 (c : Dev nD) (t : Fin cfg0.N) (r : Fin 2048) (k : Fin 512) :
    (iblk m c 2 t : Vec Ideal S2048x512 .f32) (ix2 r k)
      = Nhp.mat3 (m ((c : Thread nD τ).loc main_arg2)) (Nhp.rowOf (blkOf t) r) k := by
  unfold iblk
  rw [View.read_apply]
  show V m c main_call0_v2 _ = _
  rw [V_v2]
  show _ = (m ((c : Thread nD τ).loc main_arg2)) (ix3 0 (Nhp.rowOf (blkOf t) r) k)
  refine shapeCast_apply _ _ _ (ix3 0 (Nhp.rowOf (blkOf t) r) k) ?_
  rw [Shape.rowMajor_val_three, Shape.rowMajor_val_two]
  show ((0 : ℕ) * 16384 + (t.val * 2048 + r.val)) * 512 + k.val
    = (win0_2.index t 0 * 2048 + 1 * r.val) * 512 + (win0_2.index t 1 * 512 + 1 * k.val)
  rw [(idx2 t).1, (idx2 t).2]
  omega

theorem V_v3 (c : Dev nD) : (V m c main_call0_v3 : S16384x512.Idx → EReal)
    = shapeCast S16384x512 (m ((c : Thread nD τ).loc main_arg3)) shapeCasts_S1x16384x512_S16384x512 := by
  show StableHlo.after hostOps0 (fun b => m (c, b)) (Proc.devRef .tc main_call0_v3) = _
  after_results
  rfl

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Entry (r, k) of window 3's block at point t is entry (2048·t + r, k) of argument 3. -/
theorem blk3 (c : Dev nD) (t : Fin cfg0.N) (r : Fin 2048) (k : Fin 512) :
    (iblk m c 3 t : Vec Ideal S2048x512 .f32) (ix2 r k)
      = Nhp.mat3 (m ((c : Thread nD τ).loc main_arg3)) (Nhp.rowOf (blkOf t) r) k := by
  unfold iblk
  rw [View.read_apply]
  show V m c main_call0_v3 _ = _
  rw [V_v3]
  show _ = (m ((c : Thread nD τ).loc main_arg3)) (ix3 0 (Nhp.rowOf (blkOf t) r) k)
  refine shapeCast_apply _ _ _ (ix3 0 (Nhp.rowOf (blkOf t) r) k) ?_
  rw [Shape.rowMajor_val_three, Shape.rowMajor_val_two]
  show ((0 : ℕ) * 16384 + (t.val * 2048 + r.val)) * 512 + k.val
    = (win0_3.index t 0 * 2048 + 1 * r.val) * 512 + (win0_3.index t 1 * 512 + 1 * k.val)
  rw [(idx3 t).1, (idx3 t).2]
  omega

theorem V_v4 (c : Dev nD) : (V m c main_call0_v4 : S16384x1024.Idx → EReal)
    = shapeCast S16384x1024 (m ((c : Thread nD τ).loc main_arg4)) shapeCasts_S1x16384x1024_S16384x1024 := by
  show StableHlo.after hostOps0 (fun b => m (c, b)) (Proc.devRef .tc main_call0_v4) = _
  after_results
  rfl

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Entry (r, k) of window 4's block at point t is entry (2048·t + r, k) of argument 4. -/
theorem blk4 (c : Dev nD) (t : Fin cfg0.N) (r : Fin 2048) (k : Fin 1024) :
    (iblk m c 4 t : Vec Ideal S2048x1024 .f32) (ix2 r k)
      = Nhp.mat3 (m ((c : Thread nD τ).loc main_arg4)) (Nhp.rowOf (blkOf t) r) k := by
  unfold iblk
  rw [View.read_apply]
  show V m c main_call0_v4 _ = _
  rw [V_v4]
  show _ = (m ((c : Thread nD τ).loc main_arg4)) (ix3 0 (Nhp.rowOf (blkOf t) r) k)
  refine shapeCast_apply _ _ _ (ix3 0 (Nhp.rowOf (blkOf t) r) k) ?_
  rw [Shape.rowMajor_val_three, Shape.rowMajor_val_two]
  show ((0 : ℕ) * 16384 + (t.val * 2048 + r.val)) * 1024 + k.val
    = (win0_4.index t 0 * 2048 + 1 * r.val) * 1024 + (win0_4.index t 1 * 1024 + 1 * k.val)
  rw [(idx4 t).1, (idx4 t).2]
  omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block is the whole of argument 5 at every point. -/
theorem blk5 (c : Dev nD) (t : Fin cfg0.N) (k : Fin 512) (d : Fin 512) :
    (iblk m c 5 t : Vec Ideal S512x512 .f32) (ix2 k d) = (m ((c : Thread nD τ).loc main_arg5)) (ix2 k d) := by
  unfold iblk
  rw [View.read_apply]
  show V m c main_arg5 _ = _
  rw [V_main_arg5]
  refine congrArg (m ((c : Thread nD τ).loc main_arg5)) (funext fun x => Fin.ext ?_)
  match x with
  | ⟨0, _⟩ => show win0_5.index t 0 * 512 + 1 * k.val = k.val; rw [(idx5 t).1]; omega
  | ⟨1, _⟩ => show win0_5.index t 1 * 512 + 1 * d.val = d.val; rw [(idx5 t).2]; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block is the whole of argument 7 at every point. -/
theorem blk7 (c : Dev nD) (t : Fin cfg0.N) (k : Fin 512) (d : Fin 512) :
    (iblk m c 7 t : Vec Ideal S512x512 .f32) (ix2 k d) = (m ((c : Thread nD τ).loc main_arg7)) (ix2 k d) := by
  unfold iblk
  rw [View.read_apply]
  show V m c main_arg7 _ = _
  rw [V_main_arg7]
  refine congrArg (m ((c : Thread nD τ).loc main_arg7)) (funext fun x => Fin.ext ?_)
  match x with
  | ⟨0, _⟩ => show win0_7.index t 0 * 512 + 1 * k.val = k.val; rw [(idx7 t).1]; omega
  | ⟨1, _⟩ => show win0_7.index t 1 * 512 + 1 * d.val = d.val; rw [(idx7 t).2]; omega

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9's block is the whole of argument 9 at every point. -/
theorem blk9 (c : Dev nD) (t : Fin cfg0.N) (k : Fin 512) (d : Fin 1) :
    (iblk m c 9 t : Vec Ideal S512x1 .f32) (ix2 k d) = (m ((c : Thread nD τ).loc main_arg9)) (ix2 k d) := by
  unfold iblk
  rw [View.read_apply]
  show V m c main_arg9 _ = _
  rw [V_main_arg9]
  refine congrArg (m ((c : Thread nD τ).loc main_arg9)) (funext fun x => Fin.ext ?_)
  match x with
  | ⟨0, _⟩ => show win0_9.index t 0 * 512 + 1 * k.val = k.val; rw [(idx9 t).1]; omega
  | ⟨1, _⟩ => show win0_9.index t 1 * 1 + 1 * d.val = d.val; rw [(idx9 t).2]; omega

theorem V_v5 (c : Dev nD) : (V m c main_call0_v5 : S1x512.Idx → EReal)
    = shapeCast S1x512 (m ((c : Thread nD τ).loc main_arg6)) shapeCasts_S512_S1x512 := by
  show StableHlo.after hostOps0 (fun b => m (c, b)) (Proc.devRef .tc main_call0_v5) = _
  after_results
  rfl

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block is argument 6 laid out as one row, at every point. -/
theorem blk6 (c : Dev nD) (t : Fin cfg0.N) (d : Fin 512) :
    (iblk m c 6 t : Vec Ideal S1x512 .f32) (ix2 0 d) = (m ((c : Thread nD τ).loc main_arg6)) (ix1 d) := by
  unfold iblk
  rw [View.read_apply]
  show V m c main_call0_v5 _ = _
  rw [V_v5]
  refine shapeCast_apply _ _ _ (ix1 d) ?_
  rw [Shape.rowMajor_val_one, Shape.rowMajor_val_two]
  show d.val = (win0_6.index t 0 * 1 + 1 * 0) * 512 + (win0_6.index t 1 * 512 + 1 * d.val)
  rw [(idx6 t).1, (idx6 t).2]
  omega

theorem V_v6 (c : Dev nD) : (V m c main_call0_v6 : S1x512.Idx → EReal)
    = shapeCast S1x512 (m ((c : Thread nD τ).loc main_arg8)) shapeCasts_S512_S1x512 := by
  show StableHlo.after hostOps0 (fun b => m (c, b)) (Proc.devRef .tc main_call0_v6) = _
  after_results
  rfl

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block is argument 8 laid out as one row, at every point. -/
theorem blk8 (c : Dev nD) (t : Fin cfg0.N) (d : Fin 512) :
    (iblk m c 8 t : Vec Ideal S1x512 .f32) (ix2 0 d) = (m ((c : Thread nD τ).loc main_arg8)) (ix1 d) := by
  unfold iblk
  rw [View.read_apply]
  show V m c main_call0_v6 _ = _
  rw [V_v6]
  refine shapeCast_apply _ _ _ (ix1 d) ?_
  rw [Shape.rowMajor_val_one, Shape.rowMajor_val_two]
  show d.val = (win0_8.index t 0 * 1 + 1 * 0) * 512 + (win0_8.index t 1 * 512 + 1 * d.val)
  rw [(idx8 t).1, (idx8 t).2]
  omega

theorem V_v7 (c : Dev nD) : (V m c main_call0_v7 : S1x1.Idx → EReal)
    = shapeCast S1x1 (m ((c : Thread nD τ).loc main_arg10)) shapeCasts_S1_S1x1 := by
  show StableHlo.after hostOps0 (fun b => m (c, b)) (Proc.devRef .tc main_call0_v7) = _
  after_results
  rfl

theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 10's block is argument 10 laid out as one row, at every point. -/
theorem blk10 (c : Dev nD) (t : Fin cfg0.N) (d : Fin 1) :
    (iblk m c 10 t : Vec Ideal S1x1 .f32) (ix2 0 d) = (m ((c : Thread nD τ).loc main_arg10)) (ix1 d) := by
  unfold iblk
  rw [View.read_apply]
  show V m c main_call0_v7 _ = _
  rw [V_v7]
  refine shapeCast_apply _ _ _ (ix1 d) ?_
  rw [Shape.rowMajor_val_one, Shape.rowMajor_val_two]
  show d.val = (win0_10.index t 0 * 1 + 1 * 0) * 1 + (win0_10.index t 1 * 1 + 1 * d.val)
  rw [(idx10 t).1, (idx10 t).2]
  omega

end Cert.KernelIdeal.KVal

end
-- ==== Proof.KPieces.lean ====
/-
  What the kernel's body leaves in the accumulator at one grid point, case by case.

  The body is run in three cases. At the first point it clears the [1024, 4] accumulator, reads the cleared block
  back and stores "cleared block + this block's contribution". At a middle point it stores "what the point before
  left + this block's contribution". At the last point it does the same and then stores over it the closing
  arithmetic of that sum (the two scores beside the column sums). In each case the stores cover the whole
  accumulator, so what it holds afterwards is the last store's value, with every load of a whole buffer read as
  that buffer's contents.
-/
import proofs.«140477_g5806795784444_cont_9to1c4b_204_8_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

section pieces

variable (c : Dev nD) (i : grid0.Coords)
  (arg1 : Memref sig .tc .vmem S2048x512 .f32) (harg1 : arg1.IsWhole) (arg2 : Memref sig .tc .vmem S2048x512 .f32) (harg2 : arg2.IsWhole)
  (arg3 : Memref sig .tc .vmem S2048x512 .f32) (harg3 : arg3.IsWhole) (arg4 : Memref sig .tc .vmem S2048x512 .f32) (harg4 : arg4.IsWhole)
  (arg5 : Memref sig .tc .vmem S2048x1024 .f32) (harg5 : arg5.IsWhole) (arg6 : Memref sig .tc .vmem S512x512 .f32) (harg6 : arg6.IsWhole)
  (arg7 : Memref sig .tc .vmem S1x512 .f32) (harg7 : arg7.IsWhole) (arg8 : Memref sig .tc .vmem S512x512 .f32) (harg8 : arg8.IsWhole)
  (arg9 : Memref sig .tc .vmem S1x512 .f32) (harg9 : arg9.IsWhole) (arg10 : Memref sig .tc .vmem S512x1 .f32) (harg10 : arg10.IsWhole)
  (arg11 : Memref sig .tc .vmem S1x1 .f32) (harg11 : arg11.IsWhole) (arg12 : Memref sig .tc .vmem S1024x4 .f32) (harg12 : arg12.IsWhole)
  (x0 x1 x2 x3 : Vec F S2048x512 .f32) (x4 : Vec F S2048x1024 .f32) (x5 : Vec F S512x512 .f32) (x6 : Vec F S1x512 .f32)
  (x7 : Vec F S512x512 .f32) (x8 : Vec F S1x512 .f32) (x9 : Vec F S512x1 .f32) (x10 : Vec F S1x1 .f32)

/-- What one grid point adds to the accumulator holding `acc`: the accumulator plus the transposed incidence
    block times the four per-node columns (positive scalar, negative scalar, one, one). -/
abbrev step (acc : Vec F S1024x4 .f32) : FVec F S1024x4 .f32 :=
  k0_pay1 (k0_pay4 x6 x8) x9 (k0_pay6 x7) (k0_pay7 x6 x8 x5 x7 x9 x0 x1) (k0_pay8 x5 x2) x3 x4 acc

/-- A middle point leaves the accumulator it found plus its block's contribution. -/
theorem out_B (hc0 : ¬cond0_0 i) (hc1 : ¬cond0_1 i) (xo : Vec F S1024x4 .f32) :
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo = step x0 x1 x2 x3 x4 x5 x6 x7 x8 x9 xo := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S2048x1024) hz, View.ld_unit_zero (S := S512x512) hz, View.ld_unit_zero (S := S1x512) hz, View.ld_unit_zero (S := S512x1) hz, View.ld_unit_zero (S := S1x1) hz, View.ld_unit_zero (S := S1024x4) hz]

/-- The first point clears the accumulator first: it leaves zero plus its block's contribution. -/
theorem out_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 = step x0 x1 x2 x3 x4 x5 x6 x7 x8 x9 (k0_pay3 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10)]
  unfold kernelRun0_A
  dsimp only
  sl_unfold_words
  rw [View.canon_cons_unit_zero (S := S1024x4) hz, View.readCov_unit_zero (S := S1024x4) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S2048x1024) hz, View.ld_unit_zero (S := S512x512) hz, View.ld_unit_zero (S := S1x512) hz, View.ld_unit_zero (S := S512x1) hz, View.ld_unit_zero (S := S1x1) hz, View.ld_unit_zero (S := S1024x4) hz]

/-- The last point adds its block's contribution and then turns the sums into the two scores. -/
theorem out_C (hc0 : ¬cond0_0 i) (hc1 : cond0_1 i) (xo : Vec F S1024x4 .f32) :
    out0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo = k0_pay2 (step x0 x1 x2 x3 x4 x5 x6 x7 x8 x9 xo) x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x10 xo)]
  unfold kernelRun0_C
  dsimp only
  sl_unfold_words
  rw [View.canon_cons_unit_zero (S := S1024x4) hz]
  simp only [View.readCov_unit_zero (S := S1024x4) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2048x512) hz, View.ld_unit_zero (S := S2048x1024) hz, View.ld_unit_zero (S := S512x512) hz, View.ld_unit_zero (S := S1x512) hz, View.ld_unit_zero (S := S512x1) hz, View.ld_unit_zero (S := S1x1) hz, View.ld_unit_zero (S := S1024x4) hz]

end pieces

end Cert.KernelIdeal.KVal

end
-- ==== Proof.KMatmul.lean ====
/-
  The kernel's three matrix products read at an entry, over the extended reals.

  A product into a zero accumulator is the plain sum of products over the contracted axis:
  rows of the left operand against columns of the right one for the two projections, and —
  for the incidence block, contracted over its ROW axis on both sides — column h of the left
  operand against column j of the right one.
-/
import proofs.«140477_g5806795784444_cont_9to1c4b_204_8_alg».proof.Proof.Gen.KernelIdeal
import Idealize.ShloMosaic.Lib.ValueIdx
import Idealize.ShloMosaic.PureOps.Ideal.Laws

noncomputable section

open scoped BigOperators

namespace Cert.KernelIdeal.KMat

open Cert.KernelIdeal Idealize.ShloMosaic Idealize.ShloMosaic.ValueIdx

/-! ## [2048, 512] × [512, 512] -/

theorem lhs_hh_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_hh_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_hh_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_hh_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (r, d) of a block of rows times a square weight matrix. -/
theorem mm_hh {φ₁ φ₂ : FTy} (a : FVec Ideal S2048x512 φ₁) (w : FVec Ideal S512x512 φ₂) (r : Fin 2048) (d : Fin 512) :
    matmul dot_S2048x512_S512x512_S2048x512_1_0_0_1_n_n none a w (constant S2048x512 .f32 0x00000000#32) (ix2 r d)
      = ∑ k : Fin 512, a (ix2 r k) * w (ix2 k d) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r d) ((contrEquiv1 dot_S2048x512_S512x512_S2048x512_1_0_0_1_n_n 512 rfl rfl).symm k) = ix2 r k := funext fun x => Fin.ext (by
    match x with
    | ⟨0, _⟩ => exact lhs_hh_0 _ _
    | ⟨1, _⟩ => exact (lhs_hh_1 _ _).trans hk)
  have er : dot_S2048x512_S512x512_S2048x512_1_0_0_1_n_n.rhsIdx (ix2 r d) ((contrEquiv1 dot_S2048x512_S512x512_S2048x512_1_0_0_1_n_n 512 rfl rfl).symm k) = ix2 k d := funext fun x => Fin.ext (by
    match x with
    | ⟨0, _⟩ => exact (rhs_hh_0 _ _).trans hk
    | ⟨1, _⟩ => exact rhs_hh_1 _ _)
  rw [el, er]

/-! ## [2048, 512] × [512, 1] -/

theorem lhs_hs_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem lhs_hs_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem rhs_hs_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem rhs_hs_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- Entry (r, z) of a block of rows times the score column. -/
theorem mm_hs {φ₁ φ₂ : FTy} (a : FVec Ideal S2048x512 φ₁) (w : FVec Ideal S512x1 φ₂) (r : Fin 2048) (z : Fin 1) :
    matmul dot_S2048x512_S512x1_S2048x1_1_0_0_1_n_n none a w (constant S2048x1 .f32 0x00000000#32) (ix2 r z)
      = ∑ k : Fin 512, a (ix2 r k) * w (ix2 k z) := by
  simp only [matmul]
  rw [Ideal.matmul_constant_zero_apply, ← Equiv.sum_comp (contrEquiv1 dot_S2048x512_S512x1_S2048x1_1_0_0_1_n_n 512 rfl rfl).symm]
  refine Finset.sum_congr rfl fun k _ => ?_
  have hk := contrEquiv1_symm_val dot_S2048x512_S512x1_S2048x1_1_0_0_1_n_n 512 rfl rfl k
  have el : dot_S2048x512_S512x1_S2048x1_1_0_0_1_n_n.lhsIdx (ix2 r z) ((contrEquiv1 dot_S2048x512_S512x1_S2048x1_1_0_0_1_n_n 512 rfl rfl).symm k) = ix2 r k := funext fun x => Fin.ext (by
    match x with
    | ⟨0, _⟩ => exact lhs_hs_0 _ _
    | ⟨1, _⟩ => exact (lhs_hs_1 _ _).trans hk)
  have er : dot_S2048x512_S512x1_S2048x1_1_0_0_1_n_n.rhsIdx (ix2 r z) ((contrEquiv1 dot_S2048x512_S512x1_S2048x1_1_0_0_1_n_n 512 rfl rfl).symm k) = ix2 k z := funext fun x => Fin.ext (by
    match x with
    | ⟨0, _⟩ => exact (rhs_hs_0 _ _).trans hk
    | ⟨1, _⟩ => exact rhs_hs_1 _ _)
  rw [el, er]

/-! ## [2048, 1024]ᵀ × [2048, 4]: both operands contracted over their rows -/

theorem lhs_ts_0 (i : S1024x4.Idx) (q : dot_S2048x1024_S2048x4_S1024x4_0_0_1_1_n_n.contr.Idx) :
    (dot_S2048x1024_S2048x4_S1024x4_0_0_1_1_n_n.lhsIdx i q 0).val = (q ⟨0, by decide⟩).val :=
  dot_S2048x1024_S2048x4_S1024x4_0_0_1_1_n_n.lhsIdx_val_of_single rfl i q
theorem lhs_ts_1 (i : S1024x4.Idx) (q : dot_S2048x1024_S2048x4_S1024x4_0_0_1_1_n_n.contr.Idx) :
    (dot_S2048x1024_S2048x4_S1024x4_0_0_1_1_n_n.lhsIdx i q 1).val = (i 0).val := by
  unfold DotDims.lhsIdx
  rw [dif_neg (show ¬(1 : Fin S2048x1024.rank) ∈ dot_S2048x1024_S2048x4_S1024x4_0_0_1_1_n_n.lhsBatch by decide), dif_pos (show (1 : Fin S2048x1024.rank) ∈ dot_S2048x1024_S2048x4_S1024x4_0_0_1_1_n_n.lhsNonContracting by decide)]
  rfl
theorem rhs_ts_0 (i : S1024x4.Idx) (q : dot_S2048x1024_S2048x4_S1024x4_0_0_1_1_n_n.contr.Idx) :
    (dot_S2048x1024_S2048x4_S1024x4_0_0_1_1_n_n.rhsIdx i q 0).val = (q ⟨0, by decide⟩).val :=
  dot_S2048x1024_S2048x4_S1024x4_0_0_1_1_n_n.rhsIdx_val_of_single rfl i q
theorem rhs_ts_1 (i : S1024x4.Idx) (q : dot_S2048x1024_S2048x4_S1024x4_0_0_1_1_n_n.contr.Idx) :
    (dot_S2048x1024_S2048x4_S1024x4_0_0_1_1_n_n.rhsIdx i q 1).val = (i 1).val := by
  unfold DotDims.rhsIdx
  rw [dif_neg (show ¬(1 : Fin S2048x4.rank) ∈ dot_S2048x1024_S2048x4_S1024x4_0_0_1_1_n_n.rhsBatch by decide), dif_pos (show (1 : Fin S2048x4.rank) ∈ dot_S2048x1024_S2048x4_S1024x4_0_0_1_1_n_n.rhsNonContracting by decide)]
  rfl

/-- Entry (h, j) of the transposed incidence block times the four per-node columns: a sum over the block's rows. -/
theorem mm_ts {φ₁ φ₂ : FTy} (b : FVec Ideal S2048x1024 φ₁) (s : FVec Ideal S2048x4 φ₂) (h : Fin 1024) (j : Fin 4) :
    matmul dot_S2048x1024_S2048x4_S1024x4_0_0_1_1_n_n none b s (constant S1024x4 .f32 0x00000000#32) (ix2 h j)
      = ∑ r : Fin 2048, b (ix2 r h) * s (ix2 r j) := by
  simp only [matmul]
  rw [Ideal.matmul_constant_zero_apply, ← Equiv.sum_comp (contrEquiv1 dot_S2048x1024_S2048x4_S1024x4_0_0_1_1_n_n 2048 rfl rfl).symm]
  refine Finset.sum_congr rfl fun k _ => ?_
  have hk := contrEquiv1_symm_val dot_S2048x1024_S2048x4_S1024x4_0_0_1_1_n_n 2048 rfl rfl k
  have el : dot_S2048x1024_S2048x4_S1024x4_0_0_1_1_n_n.lhsIdx (ix2 h j) ((contrEquiv1 dot_S2048x1024_S2048x4_S1024x4_0_0_1_1_n_n 2048 rfl rfl).symm k) = ix2 k h := funext fun x => Fin.ext (by
    match x with
    | ⟨0, _⟩ => exact (lhs_ts_0 _ _).trans hk
    | ⟨1, _⟩ => exact lhs_ts_1 _ _)
  have er : dot_S2048x1024_S2048x4_S1024x4_0_0_1_1_n_n.rhsIdx (ix2 h j) ((contrEquiv1 dot_S2048x1024_S2048x4_S1024x4_0_0_1_1_n_n 2048 rfl rfl).symm k) = ix2 k j := funext fun x => Fin.ext (by
    match x with
    | ⟨0, _⟩ => exact (rhs_ts_0 _ _).trans hk
    | ⟨1, _⟩ => exact rhs_ts_1 _ _)
  rw [el, er]

end Cert.KernelIdeal.KMat

end
-- ==== Proof.KValue.lean ====
/-
  The kernel's arithmetic read at an entry, over the extended reals.

  One grid point adds to entry (h, j) of the accumulator the sum, over the 2048 rows r of its block, of the
  incidence entry (r, h) times column j of the per-node columns: the positive branch's scalar, the negative
  branch's scalar, one, one. A branch's scalar of row r is the projection on the score column of
  relu(feat·W_self + mat·W_hyper + (b_self + b_hyper)). The last point then replaces columns 0 and 1 by
  logistic(column / column 2 + b_score).
-/
import proofs.«140477_g5806795784444_cont_9to1c4b_204_8_alg».proof.Proof.KPieces
import proofs.«140477_g5806795784444_cont_9to1c4b_204_8_alg».proof.Proof.KMatmul
import Idealize.ShloMosaic.Lib.ValueLayout
import Idealize.ShloMosaic.Lib.IdealHost

noncomputable section

open scoped BigOperators
open Idealize.ShloMosaic Idealize.ShloMosaic.TcCoe Idealize.SL.Sem Idealize.ShloMosaic.ValueIdx

namespace Cert.KernelIdeal.KVal

open Cert.KernelIdeal Cert.KernelIdeal.Gen Cert.KernelIdeal.KMat

/-- Columns 0, 1, 2 of four [n, 1] columns laid side by side are the first three of them. -/
theorem concat4_apply {α : Type} {n : ℕ} (v0 v1 v2 v3 : (⟨2, ![n, 1]⟩ : Shape).Idx → α)
    (h : Shape.Concatenates (([⟨(⟨2, ![n, 1]⟩ : Shape), v0⟩, ⟨(⟨2, ![n, 1]⟩ : Shape), v1⟩, ⟨(⟨2, ![n, 1]⟩ : Shape), v2⟩, ⟨(⟨2, ![n, 1]⟩ : Shape), v3⟩] : List ((s : Shape) × (s.Idx → α))).map (·.1)) ⟨2, ![n, 4]⟩ 1)
    (r : Fin n) :
    concatenate ⟨2, ![n, 4]⟩ 1 [⟨(⟨2, ![n, 1]⟩ : Shape), v0⟩, ⟨(⟨2, ![n, 1]⟩ : Shape), v1⟩, ⟨(⟨2, ![n, 1]⟩ : Shape), v2⟩, ⟨(⟨2, ![n, 1]⟩ : Shape), v3⟩] h (ix2 r 0) = v0 (ix2 r 0)
    ∧ concatenate ⟨2, ![n, 4]⟩ 1 [⟨(⟨2, ![n, 1]⟩ : Shape), v0⟩, ⟨(⟨2, ![n, 1]⟩ : Shape), v1⟩, ⟨(⟨2, ![n, 1]⟩ : Shape), v2⟩, ⟨(⟨2, ![n, 1]⟩ : Shape), v3⟩] h (ix2 r 1) = v1 (ix2 r 0)
    ∧ concatenate ⟨2, ![n, 4]⟩ 1 [⟨(⟨2, ![n, 1]⟩ : Shape), v0⟩, ⟨(⟨2, ![n, 1]⟩ : Shape), v1⟩, ⟨(⟨2, ![n, 1]⟩ : Shape), v2⟩, ⟨(⟨2, ![n, 1]⟩ : Shape), v3⟩] h (ix2 r 2) = v2 (ix2 r 0) := by
  refine ⟨?_, ?_, ?_⟩
  · refine concatenate_apply_piece 1 _ h (ix2 r 0) 0 (by simp) _ v0 rfl rfl 0 rfl (ix2 r 0) (fun b hb => ?_) rfl
    match b with
    | ⟨0, _⟩ => rfl
    | ⟨1, _⟩ => exact absurd rfl hb
  · refine concatenate_apply_piece 1 _ h (ix2 r 1) 1 (by simp) _ v1 rfl rfl 1 rfl (ix2 r 0) (fun b hb => ?_) rfl
    match b with
    | ⟨0, _⟩ => rfl
    | ⟨1, _⟩ => exact absurd rfl hb
  · refine concatenate_apply_piece 1 _ h (ix2 r 2) 2 (by simp) _ v2 rfl rfl 2 rfl (ix2 r 0) (fun b hb => ?_) rfl
    match b with
    | ⟨0, _⟩ => rfl
    | ⟨1, _⟩ => exact absurd rfl hb

/-- relu of (two products + a bias row), projected on the score column, at row r: the sum over the hidden units. -/
theorem relu_proj (P Q : FVec Ideal S2048x512 .f32) (b : FVec Ideal S1x512 .f32) (w : Vec Ideal S512x1 .f32) (r : Fin 2048) :
    matmul dot_S2048x512_S512x1_S2048x1_1_0_0_1_n_n none
        (truncf .bf16 (maximumf (addf (addf P Q) (broadcastTo S2048x512 b broadcasts_S1x512_S2048x512))
          (broadcast S2048x512 (Scalar.ofBits .f32 0x00000000#32))) bitsLt_bf16_f32)
        (truncf .bf16 w bitsLt_bf16_f32) (constant S2048x1 .f32 0x00000000#32) (ix2 r 0)
      = ∑ d : Fin 512, max ((P (ix2 r d) + Q (ix2 r d)) + b (ix2 0 d)) 0 * w (ix2 d 0) := by
  refine (mm_hs _ _ r 0).trans (Finset.sum_congr rfl fun d _ => ?_)
  have hb : broadcastTo S2048x512 b broadcasts_S1x512_S2048x512 (ix2 r d) = b (ix2 0 d) :=
    broadcastTo_apply b _ (ix2 r d) (ix2 0 d) (fun a => by match a with | ⟨0, _⟩ => rfl | ⟨1, _⟩ => rfl)
  show max ((P (ix2 r d) + Q (ix2 r d)) + broadcastTo S2048x512 b broadcasts_S1x512_S2048x512 (ix2 r d))
      (Ideal.ofBits .f32 0x00000000#32) * w (ix2 d 0) = _
  rw [hb, Ideal.ofBits_zero_f32]

/-- The scalar of row r of a block: relu(feat·W_self + mat·W_hyper + (b_self + b_hyper)) projected on the score column. -/
def blkSc (f g : Vec Ideal S2048x512 .f32) (ws wh : Vec Ideal S512x512 .f32) (bs bh : Vec Ideal S1x512 .f32)
    (wsc : Vec Ideal S512x1 .f32) (r : Fin 2048) : EReal :=
  ∑ d : Fin 512, max (((∑ k : Fin 512, f (ix2 r k) * ws (ix2 k d)) + (∑ k : Fin 512, g (ix2 r k) * wh (ix2 k d)))
    + (bs (ix2 0 d) + bh (ix2 0 d))) 0 * wsc (ix2 d 0)

section

variable (x0 x1 x2 x3 : Vec Ideal S2048x512 .f32) (x4 : Vec Ideal S2048x1024 .f32) (x5 : Vec Ideal S512x512 .f32)
  (x6 : Vec Ideal S1x512 .f32) (x7 : Vec Ideal S512x512 .f32) (x8 : Vec Ideal S1x512 .f32) (x9 : Vec Ideal S512x1 .f32)
  (x10 : Vec Ideal S1x1 .f32)

/-- The positive branch's column, computed whole before the accumulation. -/
theorem pay7_apply (r : Fin 2048) :
    k0_pay7 (F := Ideal) x6 x8 x5 x7 x9 x0 x1 (ix2 r 0) = blkSc x0 x1 x5 x7 x6 x8 x9 r := by
  unfold k0_pay7 k0_pay4 k0_pay5 k0_pay6
  simp only [shapeCast_self]
  refine (relu_proj _ _ _ _ r).trans (Finset.sum_congr rfl fun d _ => ?_)
  rw [mm_hh, mm_hh]
  rfl

/-- One point's update of the accumulator at columns 0, 1 and 2. -/
theorem step_apply (acc : Vec Ideal S1024x4 .f32) (h : Fin 1024) :
    step (F := Ideal) x0 x1 x2 x3 x4 x5 x6 x7 x8 x9 acc (ix2 h 0)
        = acc (ix2 h 0) + ∑ r : Fin 2048, x4 (ix2 r h) * blkSc x0 x1 x5 x7 x6 x8 x9 r
    ∧ step (F := Ideal) x0 x1 x2 x3 x4 x5 x6 x7 x8 x9 acc (ix2 h 1)
        = acc (ix2 h 1) + ∑ r : Fin 2048, x4 (ix2 r h) * blkSc x2 x3 x5 x7 x6 x8 x9 r
    ∧ step (F := Ideal) x0 x1 x2 x3 x4 x5 x6 x7 x8 x9 acc (ix2 h 2)
        = acc (ix2 h 2) + ∑ r : Fin 2048, x4 (ix2 r h) * 1 := by
  unfold step k0_pay1
  simp only [shapeCast_self]
  refine ⟨?_, ?_, ?_⟩
  · refine (congrArg (acc (ix2 h 0) + ·) (mm_ts _ _ h 0)).trans ?_
    refine congrArg (acc (ix2 h 0) + ·) (Finset.sum_congr rfl fun r _ => ?_)
    simp only [truncf_apply]
    rw [(concat4_apply (n := 2048) _ _ _ _ _ r).1, pay7_apply]
  · refine (congrArg (acc (ix2 h 1) + ·) (mm_ts _ _ h 1)).trans ?_
    refine congrArg (acc (ix2 h 1) + ·) (Finset.sum_congr rfl fun r _ => ?_)
    simp only [truncf_apply]
    rw [(concat4_apply (n := 2048) _ _ _ _ _ r).2.1]
    refine congrArg (x4 (ix2 r h) * ·) ?_
    refine (relu_proj _ _ _ _ r).trans (Finset.sum_congr rfl fun d _ => ?_)
    unfold k0_pay8 k0_pay4 k0_pay5 k0_pay6
    simp only [shapeCast_self]
    rw [mm_hh, mm_hh]
    rfl
  · refine (congrArg (acc (ix2 h 2) + ·) (mm_ts _ _ h 2)).trans ?_
    refine congrArg (acc (ix2 h 2) + ·) (Finset.sum_congr rfl fun r _ => ?_)
    simp only [truncf_apply]
    rw [(concat4_apply (n := 2048) _ _ _ _ _ r).2.2]
    show x4 (ix2 r h) * Ideal.ofBits .f32 0x3F800000#32 = _
    rw [Ideal.ofBits_one_f32]

/-- The last point's closing arithmetic at columns 0 and 1: the column over column 2, plus the score bias, squashed. -/
theorem fin_apply (acc : Vec Ideal S1024x4 .f32) (h : Fin 1024) :
    k0_pay2 (F := Ideal) acc x10 (ix2 h 0) = Ideal.logistic (Ideal.div (acc (ix2 h 0)) (acc (ix2 h 2)) + x10 (ix2 0 0))
    ∧ k0_pay2 (F := Ideal) acc x10 (ix2 h 1) = Ideal.logistic (Ideal.div (acc (ix2 h 1)) (acc (ix2 h 2)) + x10 (ix2 0 0)) := by
  unfold k0_pay2
  simp only [shapeCast_self]
  have s0 : extractStridedSlice S1024x1 ![0, 0] acc slices_S1024x4_o0_0_S1024x1 (ix2 h 0) = acc (ix2 h 0) :=
    extractStridedSlice_apply _ acc _ (ix2 h 0) (ix2 h 0) (fun a => by match a with | ⟨0, _⟩ => exact (Nat.zero_add _).symm | ⟨1, _⟩ => rfl)
  have s1 : extractStridedSlice S1024x1 ![0, 1] acc slices_S1024x4_o0_1_S1024x1 (ix2 h 0) = acc (ix2 h 1) :=
    extractStridedSlice_apply _ acc _ (ix2 h 0) (ix2 h 1) (fun a => by match a with | ⟨0, _⟩ => exact (Nat.zero_add _).symm | ⟨1, _⟩ => rfl)
  have s2 : extractStridedSlice S1024x1 ![0, 2] acc slices_S1024x4_o0_2_S1024x1 (ix2 h 0) = acc (ix2 h 2) :=
    extractStridedSlice_apply _ acc _ (ix2 h 0) (ix2 h 2) (fun a => by match a with | ⟨0, _⟩ => exact (Nat.zero_add _).symm | ⟨1, _⟩ => rfl)
  have eb : extractAt ![0, 0] x10 inpos_S1x1_p0_0 = x10 (ix2 0 0) :=
    congrArg x10 (funext fun a => Fin.ext (by match a with | ⟨0, _⟩ => rfl | ⟨1, _⟩ => rfl))
  refine ⟨?_, ?_⟩
  · rw [(concat4_apply (n := 1024) _ _ _ _ _ h).1]
    show Ideal.logistic (Ideal.div (extractStridedSlice S1024x1 ![0, 0] acc _ (ix2 h 0)) (extractStridedSlice S1024x1 ![0, 2] acc _ (ix2 h 0))
      + extractAt ![0, 0] x10 _) = _
    rw [s0, s2, eb]
  · rw [(concat4_apply (n := 1024) _ _ _ _ _ h).2.1]
    show Ideal.logistic (Ideal.div (extractStridedSlice S1024x1 ![0, 1] acc _ (ix2 h 0)) (extractStridedSlice S1024x1 ![0, 2] acc _ (ix2 h 0))
      + extractAt ![0, 0] x10 _) = _
    rw [s1, s2, eb]

end

end Cert.KernelIdeal.KVal

end
-- ==== Proof.LibPrefixSum.lean ====
/-
  Sums over an initial segment of `Fin N`, one term at a time: the running total of a quantity accumulated
  over the points 0, 1, …, n of a grid, in any additive commutative monoid.
-/
import Mathlib.Algebra.BigOperators.Fin
import Mathlib.Data.Fintype.Basic

open scoped BigOperators

namespace LibPrefixSum

variable {M : Type*} [AddCommMonoid M] {N : ℕ}

/-- The total of `f` over the points up to and including `n`. -/
def upTo (f : Fin N → M) (n : ℕ) : M := ∑ b ∈ Finset.univ.filter (fun b : Fin N => b.val ≤ n), f b

/-- Up to point 0 there is the one term. -/
theorem upTo_zero (f : Fin N → M) (h0 : 0 < N) : upTo f 0 = f ⟨0, h0⟩ := by
  unfold upTo
  have : Finset.univ.filter (fun b : Fin N => b.val ≤ 0) = {⟨0, h0⟩} := by
    ext b
    simp only [Finset.mem_filter, Finset.mem_univ, true_and, Finset.mem_singleton, Nat.le_zero]
    exact ⟨fun h => Fin.ext h, fun h => by rw [h]⟩
  rw [this, Finset.sum_singleton]

/-- One more point adds its term. -/
theorem upTo_succ (f : Fin N → M) (n : ℕ) (hn : n + 1 < N) : upTo f (n + 1) = upTo f n + f ⟨n + 1, hn⟩ := by
  unfold upTo
  have : Finset.univ.filter (fun b : Fin N => b.val ≤ n + 1)
      = insert ⟨n + 1, hn⟩ (Finset.univ.filter (fun b : Fin N => b.val ≤ n)) := by
    ext b
    simp only [Finset.mem_filter, Finset.mem_univ, true_and, Finset.mem_insert]
    constructor
    · intro h
      rcases Nat.lt_or_ge b.val (n + 1) with h' | h'
      · exact Or.inr (Nat.lt_succ_iff.mp h')
      · exact Or.inl (Fin.ext (Nat.le_antisymm h h'))
    · rintro (h | h)
      · rw [h]
      · exact Nat.le_succ_of_le h
  rw [this, Finset.sum_insert, add_comm]
  simp only [Finset.mem_filter, Finset.mem_univ, true_and, not_le]
  exact Nat.lt_succ_self n

/-- Up to the last point it is the whole sum. -/
theorem upTo_all (f : Fin N → M) (n : ℕ) (hn : N ≤ n + 1) : upTo f n = ∑ b, f b := by
  unfold upTo
  have : Finset.univ.filter (fun b : Fin N => b.val ≤ n) = Finset.univ := by
    ext b
    simp only [Finset.mem_filter, Finset.mem_univ, true_and, iff_true]
    have := b.isLt
    omega
  rw [this]

end LibPrefixSum
-- ==== Proof.KRun.lean ====
/-
  The kernel's run, read: what the result arrays hold at the end.

  The accumulator after point n holds, at (h, j), the sum over the blocks 0 … n and over each block's rows of
  incidence entry times column j — by induction on the point, one block at a time. The last point closes
  the sums into the two scores; its write-back is the only one and covers the whole [1024, 4] array, and the
  two results are its columns 0 and 1.
-/
import proofs.«140477_g5806795784444_cont_9to1c4b_204_8_alg».proof.Proof.KBlocks
import proofs.«140477_g5806795784444_cont_9to1c4b_204_8_alg».proof.Proof.KValue
import proofs.«140477_g5806795784444_cont_9to1c4b_204_8_alg».proof.Proof.LibPrefixSum

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen LibPrefixSum

variable (m : (ℓ : Loc nD τ sig) → Buf (Elt Ideal) ℓ) (ρ : Dev nD → PrngReg)

/-! ## The blocks at a point, by their literal types -/

abbrev pfB (c : Dev nD) (t : Fin cfg0.N) : Vec Ideal S2048x512 .f32 := iblk m c 0 t
abbrev pmB (c : Dev nD) (t : Fin cfg0.N) : Vec Ideal S2048x512 .f32 := iblk m c 1 t
abbrev nfB (c : Dev nD) (t : Fin cfg0.N) : Vec Ideal S2048x512 .f32 := iblk m c 2 t
abbrev nmB (c : Dev nD) (t : Fin cfg0.N) : Vec Ideal S2048x512 .f32 := iblk m c 3 t
abbrev bmB (c : Dev nD) (t : Fin cfg0.N) : Vec Ideal S2048x1024 .f32 := iblk m c 4 t
abbrev wsB (c : Dev nD) (t : Fin cfg0.N) : Vec Ideal S512x512 .f32 := iblk m c 5 t
abbrev bsB (c : Dev nD) (t : Fin cfg0.N) : Vec Ideal S1x512 .f32 := iblk m c 6 t
abbrev whB (c : Dev nD) (t : Fin cfg0.N) : Vec Ideal S512x512 .f32 := iblk m c 7 t
abbrev bhB (c : Dev nD) (t : Fin cfg0.N) : Vec Ideal S1x512 .f32 := iblk m c 8 t
abbrev wscB (c : Dev nD) (t : Fin cfg0.N) : Vec Ideal S512x1 .f32 := iblk m c 9 t
abbrev bscB (c : Dev nD) (t : Fin cfg0.N) : Vec Ideal S1x1 .f32 := iblk m c 10 t

/-! ## The accumulator point by point -/

theorem outs_A (c : Dev nD) (t : Fin cfg0.N) (h0 : t.val % 8 = 0) (h1 : ¬t.val % 8 = 7) :
    outsAt0 m c t.val t.isLt = step (pfB m c t) (pmB m c t) (nfB m c t) (nmB m c t) (bmB m c t) (wsB m c t) (bsB m c t) (whB m c t) (bhB m c t) (wscB m c t) (k0_pay3 (F := Ideal)) :=
  (outsAt0_A m c t h0 h1).trans
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (fun h => h1 ((hcond0_1 t).mp h)))

theorem outs_B (c : Dev nD) (t : Fin cfg0.N) (h0 : ¬t.val % 8 = 0) (h1 : ¬t.val % 8 = 7) :
    outsAt0 m c t.val t.isLt
      = step (pfB m c t) (pmB m c t) (nfB m c t) (nmB m c t) (bmB m c t) (wsB m c t) (bsB m c t) (whB m c t) (bhB m c t) (wscB m c t) (outsAt0 m c (t.val - 1) (Nat.lt_of_le_of_lt (Nat.sub_le _ _) t.isLt)) :=
  (outsAt0_B m c t h0 h1).trans
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => h0 ((hcond0_0 t).mp h)) (fun h => h1 ((hcond0_1 t).mp h))
      (outsAt0 m c (t.val - 1) (Nat.lt_of_le_of_lt (Nat.sub_le _ _) t.isLt)))

theorem outs_C (c : Dev nD) (t : Fin cfg0.N) (h0 : ¬t.val % 8 = 0) (h1 : t.val % 8 = 7) :
    outsAt0 m c t.val t.isLt
      = k0_pay2 (step (pfB m c t) (pmB m c t) (nfB m c t) (nmB m c t) (bmB m c t) (wsB m c t) (bsB m c t) (whB m c t) (bhB m c t) (wscB m c t) (outsAt0 m c (t.val - 1) (Nat.lt_of_le_of_lt (Nat.sub_le _ _) t.isLt))) (bscB m c t) :=
  (outsAt0_C m c t h0 h1).trans
    (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => h0 ((hcond0_0 t).mp h)) ((hcond0_1 t).mpr h1)
      (outsAt0 m c (t.val - 1) (Nat.lt_of_le_of_lt (Nat.sub_le _ _) t.isLt)))

/-! ## The running sums -/

/-- The positive branch's scalar of row r of block t. -/
def sP (c : Dev nD) (t : Fin cfg0.N) (r : Fin 2048) : EReal :=
  blkSc (pfB m c t) (pmB m c t) (wsB m c t) (whB m c t) (bsB m c t) (bhB m c t) (wscB m c t) r
/-- The negative branch's scalar of row r of block t. -/
def sN (c : Dev nD) (t : Fin cfg0.N) (r : Fin 2048) : EReal :=
  blkSc (nfB m c t) (nmB m c t) (wsB m c t) (whB m c t) (bsB m c t) (bhB m c t) (wscB m c t) r

/-- Block t's contribution to entry h of a column: its rows' incidence entries times the column's entries. -/
def contrib (c : Dev nD) (s : Fin cfg0.N → Fin 2048 → EReal) (h : Fin 1024) (t : Fin cfg0.N) : EReal :=
  ∑ r : Fin 2048, bmB m c t (ix2 r h) * s t r

/-- The block the first point stores before accumulating is zero. -/
theorem zero_apply (i : S1024x4.Idx) : k0_pay3 (F := Ideal) i = 0 := by
  show Ideal.ofBits .f32 0x00000000#32 = 0
  exact Ideal.ofBits_zero_f32

/-- Before the last point the accumulator's columns 0, 1, 2 are the sums over the blocks so far. -/
theorem outs_lt (c : Dev nD) : ∀ (n : ℕ) (hn : n < cfg0.N), n < 7 → ∀ h : Fin 1024,
    outsAt0 m c n hn (ix2 h 0) = upTo (contrib m c (sP m c) h) n
    ∧ outsAt0 m c n hn (ix2 h 1) = upTo (contrib m c (sN m c) h) n
    ∧ outsAt0 m c n hn (ix2 h 2) = upTo (contrib m c (fun _ _ => 1) h) n
  | 0, hn, _, h => by
    have e : outsAt0 m c 0 hn = step (pfB m c ⟨0, hn⟩) (pmB m c ⟨0, hn⟩) (nfB m c ⟨0, hn⟩) (nmB m c ⟨0, hn⟩) (bmB m c ⟨0, hn⟩) (wsB m c ⟨0, hn⟩) (bsB m c ⟨0, hn⟩) (whB m c ⟨0, hn⟩) (bhB m c ⟨0, hn⟩) (wscB m c ⟨0, hn⟩) (k0_pay3 (F := Ideal)) :=
      outs_A m c ⟨0, hn⟩ rfl (by dsimp only; omega)
    obtain ⟨s0, s1, s2⟩ := step_apply (pfB m c ⟨0, hn⟩) (pmB m c ⟨0, hn⟩) (nfB m c ⟨0, hn⟩) (nmB m c ⟨0, hn⟩) (bmB m c ⟨0, hn⟩) (wsB m c ⟨0, hn⟩) (bsB m c ⟨0, hn⟩) (whB m c ⟨0, hn⟩) (bhB m c ⟨0, hn⟩) (wscB m c ⟨0, hn⟩) (k0_pay3 (F := Ideal)) h
    refine ⟨(congrFun e (ix2 h 0)).trans (s0.trans ?_), (congrFun e (ix2 h 1)).trans (s1.trans ?_),
      (congrFun e (ix2 h 2)).trans (s2.trans ?_)⟩
    · rw [zero_apply, zero_add, upTo_zero _ hn]; rfl
    · rw [zero_apply, zero_add, upTo_zero _ hn]; rfl
    · rw [zero_apply, zero_add, upTo_zero _ hn]; rfl
  | n + 1, hn, h7, h => by
    have hB0 : ¬(⟨n + 1, hn⟩ : Fin cfg0.N).val % 8 = 0 := by dsimp only; omega
    have hB1 : ¬(⟨n + 1, hn⟩ : Fin cfg0.N).val % 8 = 7 := by dsimp only; omega
    have e : outsAt0 m c (n + 1) hn = step (pfB m c ⟨n + 1, hn⟩) (pmB m c ⟨n + 1, hn⟩) (nfB m c ⟨n + 1, hn⟩) (nmB m c ⟨n + 1, hn⟩) (bmB m c ⟨n + 1, hn⟩) (wsB m c ⟨n + 1, hn⟩) (bsB m c ⟨n + 1, hn⟩) (whB m c ⟨n + 1, hn⟩) (bhB m c ⟨n + 1, hn⟩) (wscB m c ⟨n + 1, hn⟩) (outsAt0 m c n (Nat.lt_of_succ_lt hn)) :=
      outs_B m c ⟨n + 1, hn⟩ hB0 hB1
    obtain ⟨i0, i1, i2⟩ := outs_lt c n (Nat.lt_of_succ_lt hn) (by omega) h
    obtain ⟨s0, s1, s2⟩ := step_apply (pfB m c ⟨n + 1, hn⟩) (pmB m c ⟨n + 1, hn⟩) (nfB m c ⟨n + 1, hn⟩) (nmB m c ⟨n + 1, hn⟩) (bmB m c ⟨n + 1, hn⟩) (wsB m c ⟨n + 1, hn⟩) (bsB m c ⟨n + 1, hn⟩) (whB m c ⟨n + 1, hn⟩) (bhB m c ⟨n + 1, hn⟩) (wscB m c ⟨n + 1, hn⟩) (outsAt0 m c n (Nat.lt_of_succ_lt hn)) h
    refine ⟨(congrFun e (ix2 h 0)).trans (s0.trans ?_), (congrFun e (ix2 h 1)).trans (s1.trans ?_),
      (congrFun e (ix2 h 2)).trans (s2.trans ?_)⟩
    · rw [i0, upTo_succ _ n hn]; rfl
    · rw [i1, upTo_succ _ n hn]; rfl
    · rw [i2, upTo_succ _ n hn]; rfl

/-! ## The last point and the result arrays -/

/-- The last grid point. -/
abbrev tLast : Fin cfg0.N := ⟨7, by rw [show cfg0.N = 8 from N_0]; decide⟩

/-- A column's total over all eight blocks. -/
def tot (c : Dev nD) (s : Fin cfg0.N → Fin 2048 → EReal) (h : Fin 1024) : EReal := ∑ t : Fin cfg0.N, contrib m c s h t

/-- After the last point, columns 0 and 1 hold the two scores. -/
theorem outs_last (c : Dev nD) (h : Fin 1024) :
    outsAt0 m c 7 tLast.isLt (ix2 h 0)
        = Ideal.logistic (Ideal.div (tot m c (sP m c) h) (tot m c (fun _ _ => 1) h) + bscB m c tLast (ix2 0 0))
    ∧ outsAt0 m c 7 tLast.isLt (ix2 h 1)
        = Ideal.logistic (Ideal.div (tot m c (sN m c) h) (tot m c (fun _ _ => 1) h) + bscB m c tLast (ix2 0 0)) := by
  have h6 : 6 < cfg0.N := by rw [show cfg0.N = 8 from N_0]; decide
  have e : outsAt0 m c 7 tLast.isLt = k0_pay2 (step (pfB m c tLast) (pmB m c tLast) (nfB m c tLast) (nmB m c tLast) (bmB m c tLast) (wsB m c tLast) (bsB m c tLast) (whB m c tLast) (bhB m c tLast) (wscB m c tLast) (outsAt0 m c 6 h6)) (bscB m c tLast) :=
    outs_C m c tLast (by dsimp only; omega) rfl
  obtain ⟨f0, f1⟩ := fin_apply (bscB m c tLast) (step (pfB m c tLast) (pmB m c tLast) (nfB m c tLast) (nmB m c tLast) (bmB m c tLast) (wsB m c tLast) (bsB m c tLast) (whB m c tLast) (bhB m c tLast) (wscB m c tLast) (outsAt0 m c 6 h6)) h
  obtain ⟨s0, s1, s2⟩ := step_apply (pfB m c tLast) (pmB m c tLast) (nfB m c tLast) (nmB m c tLast) (bmB m c tLast) (wsB m c tLast) (bsB m c tLast) (whB m c tLast) (bhB m c tLast) (wscB m c tLast) (outsAt0 m c 6 h6) h
  obtain ⟨i0, i1, i2⟩ := outs_lt m c 6 h6 (by decide) h
  have hN : cfg0.N ≤ 7 + 1 := le_of_eq N_0
  have t0 : step (pfB m c tLast) (pmB m c tLast) (nfB m c tLast) (nmB m c tLast) (bmB m c tLast) (wsB m c tLast) (bsB m c tLast) (whB m c tLast) (bhB m c tLast) (wscB m c tLast) (outsAt0 m c 6 h6) (ix2 h 0) = tot m c (sP m c) h := by
    rw [s0, i0]
    exact ((upTo_succ (contrib m c (sP m c) h) 6 tLast.isLt).symm).trans (upTo_all _ 7 hN)
  have t1 : step (pfB m c tLast) (pmB m c tLast) (nfB m c tLast) (nmB m c tLast) (bmB m c tLast) (wsB m c tLast) (bsB m c tLast) (whB m c tLast) (bhB m c tLast) (wscB m c tLast) (outsAt0 m c 6 h6) (ix2 h 1) = tot m c (sN m c) h := by
    rw [s1, i1]
    exact ((upTo_succ (contrib m c (sN m c) h) 6 tLast.isLt).symm).trans (upTo_all _ 7 hN)
  have t2 : step (pfB m c tLast) (pmB m c tLast) (nfB m c tLast) (nmB m c tLast) (bmB m c tLast) (wsB m c tLast) (bsB m c tLast) (whB m c tLast) (bhB m c tLast) (wscB m c tLast) (outsAt0 m c 6 h6) (ix2 h 2) = tot m c (fun _ _ => 1) h := by
    rw [s2, i2]
    exact ((upTo_succ (contrib m c (fun _ _ => 1) h) 6 tLast.isLt).symm).trans (upTo_all _ 7 hN)
  refine ⟨(congrFun e (ix2 h 0)).trans (f0.trans ?_), (congrFun e (ix2 h 1)).trans (f1.trans ?_)⟩
  · rw [t0, t2]
  · rw [t1, t2]

/-- What the [1024, 4] array ends holding: the accumulator after the last point. -/
abbrev result (c : Dev nD) : Buf (Elt Ideal) ((c : Thread nD τ).loc main_call0_v8) := outsAt0 m c 7 tLast.isLt

/-- The only write-back is the last point's, and its block is the whole array. -/
theorem flushed_eq (c : Dev nD) (t : Fin cfg0.N) (hf : (cfg0.win 11).flush t = true) :
    (dats m 0 c).flushed 11 t = ((cfg0.win 11).blk t).view.read (Elt Ideal) (result m c) := by
  have h7 : t.val = 7 := by
    have h1 := (flush0_11 t).mp hf
    have h2 : t.val < 8 := lt_of_lt_of_eq t.isLt N_0
    omega
  obtain rfl : t = tLast := Fin.ext h7
  show (cfg0.win 11).cut (grid0.coords tLast) ((dats m 0 c).after 11 tLast) = _
  rw [after0_11]
  have hoff : (fun a => win0_11.index tLast a * main_call0_v8.ty.shape.size a) = fun _ => 0 :=
    funext fun a => by fin_cases a <;> decide
  exact (Memref.read_access_unit_zero (Elt Ideal) main_call0_v8 hoff (fun a => by rw [congrFun hoff a]; simp) (result m c)).symm

/-- So the array ends holding the accumulator after the last point: that point's block covers every entry. -/
theorem final_o (c : Dev nD) : (dats m 0 c).arrAt 11 cfg0.N = result m c :=
  (dats m 0 c).arrAt_eq_of_cover 11 (result m c) (flushed_eq m c) fun i =>
    ⟨tLast, (flush0_11 tLast).mpr rfl, by
      show i ∈ ((View.whole main_call0_v8).slice (win0_11.rect tLast)).set
      rw [View.set_slice_whole, Rect.mem_set_unit]
      intro a
      have h0 : (i 0 : Nat) < 1024 := (i 0).isLt
      have h1 : (i 1 : Nat) < 4 := (i 1).isLt
      match a with
      | ⟨0, _⟩ =>
        show win0_11.index tLast 0 * win0_11.size 0 ≤ (i 0 : Nat)
          ∧ (i 0 : Nat) < win0_11.index tLast 0 * win0_11.size 0 + win0_11.xsize (grid0.coords tLast) 0
        rw [show win0_11.index tLast 0 * win0_11.size 0 = 0 from by decide +kernel,
          show win0_11.xsize (grid0.coords tLast) 0 = 1024 from by decide +kernel]
        omega
      | ⟨1, _⟩ =>
        show win0_11.index tLast 1 * win0_11.size 1 ≤ (i 1 : Nat)
          ∧ (i 1 : Nat) < win0_11.index tLast 1 * win0_11.size 1 + win0_11.xsize (grid0.coords tLast) 1
        rw [show win0_11.index tLast 1 * win0_11.size 1 = 0 from by decide +kernel,
          show win0_11.xsize (grid0.coords tLast) 1 = 4 from by decide +kernel]
        omega⟩

/-- Result 0 is column 0 of that array. -/
theorem tail0 (c : Dev nD) : Pipeline.afterTail₀ cfgs (dats m) 0 (V0 m) [hostOps1] c main_v0_0
    = extractStridedSlice S1024x1 ![0, 0] (result m c) slices_S1024x4_S1024x1_0_0 := by
  unfold Pipeline.afterTail₀
  show StableHlo.after hostOps1 _ (Proc.devRef .tc main_v0_0) = _
  after_results
  exact congrArg (fun x => extractStridedSlice S1024x1 ![0, 0] x slices_S1024x4_S1024x1_0_0)
    ((Pipeline.withArrays_arr spec0 launch0.win.arr_inj c (V0 m c) (fun w => (dats m 0 c).arrAt w cfg0.N) 11).trans (final_o m c))

/-- Result 1 is column 1 of that array. -/
theorem tail1 (c : Dev nD) : Pipeline.afterTail₀ cfgs (dats m) 0 (V0 m) [hostOps1] c main_v0_1
    = extractStridedSlice S1024x1 ![0, 1] (result m c) slices_S1024x4_S1024x1_0_1 := by
  unfold Pipeline.afterTail₀
  show StableHlo.after hostOps1 _ (Proc.devRef .tc main_v0_1) = _
  after_results
  exact congrArg (fun x => extractStridedSlice S1024x1 ![0, 1] x slices_S1024x4_S1024x1_0_1)
    ((Pipeline.withArrays_arr spec0 launch0.win.arr_inj c (V0 m c) (fun w => (dats m 0 c).arrAt w cfg0.N) 11).trans (final_o m c))

/-! ## In terms of the argument arrays -/

/-- A block's positive scalar is the node's scalar of the specification, at the block's row of the whole array. -/
theorem sP_eq (c : Dev nD) (t : Fin cfg0.N) (r : Fin 2048) :
    sP m c t r = Nhp.scK (Nhp.mat3 (m ((c : Thread nD τ).loc main_arg0))) (Nhp.mat3 (m ((c : Thread nD τ).loc main_arg1))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9))) (Nhp.rowOf (blkOf t) r) := by
  unfold sP blkSc Nhp.scK Nhp.hidK
  simp only [blk0, blk1, blk5, blk6, blk7, blk8, blk9]
  rfl

/-- The same for the negative branch. -/
theorem sN_eq (c : Dev nD) (t : Fin cfg0.N) (r : Fin 2048) :
    sN m c t r = Nhp.scK (Nhp.mat3 (m ((c : Thread nD τ).loc main_arg2))) (Nhp.mat3 (m ((c : Thread nD τ).loc main_arg3))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9))) (Nhp.rowOf (blkOf t) r) := by
  unfold sN blkSc Nhp.scK Nhp.hidK
  simp only [blk2, blk3, blk5, blk6, blk7, blk8, blk9]
  rfl

/-- A column's total over the grid's points is the specification's block-by-block sum. -/
theorem tot_eq (c : Dev nD) (s : Fin 16384 → EReal) (sB : Fin cfg0.N → Fin 2048 → EReal)
    (hs : ∀ t r, sB t r = s (Nhp.rowOf (blkOf t) r)) (h : Fin 1024) :
    tot m c sB h = Nhp.accK (Nhp.mat3 (m ((c : Thread nD τ).loc main_arg4))) s h := by
  unfold tot contrib Nhp.accK
  refine Fintype.sum_equiv (finCongr N_0) _ _ (fun t => Finset.sum_congr rfl fun r _ => ?_)
  exact congrArg₂ (· * ·) (blk4 m c t r h) (hs t r)

/-- Entry (h, 0) of the final array is the specification's score of hyperlink h for this branch. -/
theorem result_col0 (c : Dev nD) (h : Fin 1024) :
    result m c (ix2 h 0) = Nhp.scoreK (Nhp.mat3 (m ((c : Thread nD τ).loc main_arg0))) (Nhp.mat3 (m ((c : Thread nD τ).loc main_arg1))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9))) (Nhp.mat3 (m ((c : Thread nD τ).loc main_arg4))) ((m ((c : Thread nD τ).loc main_arg10)) (ix1 0)) h := by
  refine ((outs_last m c h).1).trans ?_
  rw [tot_eq m c (Nhp.scK (Nhp.mat3 (m ((c : Thread nD τ).loc main_arg0))) (Nhp.mat3 (m ((c : Thread nD τ).loc main_arg1))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9)))) (sP m c) (sP_eq m c) h,
    tot_eq m c (fun _ => 1) (fun _ _ => 1) (fun _ _ => rfl) h]
  simp only [blk10]
  rfl

/-- Entry (h, 1) of the final array is the specification's score of hyperlink h for this branch. -/
theorem result_col1 (c : Dev nD) (h : Fin 1024) :
    result m c (ix2 h 1) = Nhp.scoreK (Nhp.mat3 (m ((c : Thread nD τ).loc main_arg2))) (Nhp.mat3 (m ((c : Thread nD τ).loc main_arg3))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9))) (Nhp.mat3 (m ((c : Thread nD τ).loc main_arg4))) ((m ((c : Thread nD τ).loc main_arg10)) (ix1 0)) h := by
  refine ((outs_last m c h).2).trans ?_
  rw [tot_eq m c (Nhp.scK (Nhp.mat3 (m ((c : Thread nD τ).loc main_arg2))) (Nhp.mat3 (m ((c : Thread nD τ).loc main_arg3))) (Nhp.mat2 (m ((c : Thread nD τ).loc main_arg5))) (Nhp.mat2 (m ((c : Thread nD τ).loc main_arg7))) (Nhp.vec1 (m ((c : Thread nD τ).loc main_arg6))) (Nhp.vec1 (m ((c : Thread nD τ).loc main_arg8))) (Nhp.col (m ((c : Thread nD τ).loc main_arg9)))) (sN m c) (sN_eq m c) h,
    tot_eq m c (fun _ => 1) (fun _ _ => 1) (fun _ _ => rfl) h]
  simp only [blk10]
  rfl

/-- A [1024, 1] array that agrees entry by entry with column 0 of a [1024, 4] array is that column's slice. -/
theorem slice_col0 (G : Vec Ideal S1024x4 .f32) (R : Vec Ideal S1024x1 .f32) (hR : ∀ h : Fin 1024, G (ix2 h 0) = R (ix2 h 0)) :
    extractStridedSlice S1024x1 ![0, 0] G slices_S1024x4_S1024x1_0_0 = R := by
  funext i
  obtain ⟨h, z, rfl⟩ : ∃ (h : Fin 1024) (z : Fin 1), i = ix2 h z := ⟨i 0, i 1, eq_ix2 i⟩
  obtain rfl : z = 0 := Subsingleton.elim _ _
  exact (extractStridedSlice_apply ![0, 0] G slices_S1024x4_S1024x1_0_0 (ix2 h 0) (ix2 h 0)
    (fun a => by match a with | ⟨0, _⟩ => exact (Nat.zero_add _).symm | ⟨1, _⟩ => rfl)).trans (hR h)

/-- The same for column 1. -/
theorem slice_col1 (G : Vec Ideal S1024x4 .f32) (R : Vec Ideal S1024x1 .f32) (hR : ∀ h : Fin 1024, G (ix2 h 1) = R (ix2 h 0)) :
    extractStridedSlice S1024x1 ![0, 1] G slices_S1024x4_S1024x1_0_1 = R := by
  funext i
  obtain ⟨h, z, rfl⟩ : ∃ (h : Fin 1024) (z : Fin 1), i = ix2 h z := ⟨i 0, i 1, eq_ix2 i⟩
  obtain rfl : z = 0 := Subsingleton.elim _ _
  exact (extractStridedSlice_apply ![0, 1] G slices_S1024x4_S1024x1_0_1 (ix2 h 0) (ix2 h 1)
    (fun a => by match a with | ⟨0, _⟩ => exact (Nat.zero_add _).symm | ⟨1, _⟩ => rfl)).trans (hR h)

/-- Column 0 of the final array is the specification's result for the positive branch. -/
theorem res0 (c : Dev nD) : extractStridedSlice S1024x1 ![0, 0] (result m c) slices_S1024x4_S1024x1_0_0
    = Nhp.resK (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  slice_col0 (result m c) (Nhp.resK (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun h => result_col0 m c h)

/-- Column 1 is the result for the negative branch. -/
theorem res1 (c : Dev nD) : extractStridedSlice S1024x1 ![0, 1] (result m c) slices_S1024x4_S1024x1_0_1
    = Nhp.resK (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  slice_col1 (result m c) (Nhp.resK (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun h => result_col1 m c h)

/-! ## The run -/

/-- Every weakly fair execution of the kernel's program ends with the two results at the specification's
    values of the argument arrays, and the arguments as they were. -/
theorem run : θ_run defs (onTc (τ := τ) (main (F := Ideal))) ⟨m, fun _ => 0, ρ⟩ fun r => ∀ c : Dev nD,
      r.2.mem ((c.tc : Thread nD τ).loc main_v0_0) = Nhp.resK (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v0_1) = Nhp.resK (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v0_0 (Pipeline.mem_restRefs_of main_v0_0 (by decide) (by decide))).trans ((tail0 m c).trans (res0 m c)),
      ((h c).2 main_v0_1 (Pipeline.mem_restRefs_of main_v0_1 (by decide) (by decide))).trans ((tail1 m c).trans (res1 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.KernelIdeal.KVal

end
-- ==== Proof.RefValue.lean ====
/-
  The reference program's two results, read at an index.

  The reference sums each column of the incidence matrix, divides every weight by its column's
  sum, forms each node's hidden vector relu((feat·W_self + b_self) + (mat·W_hyper + b_hyper)),
  averages the hidden vectors of a hyperlink's nodes with the normalised weights, projects the
  average on the score vector, adds the score bias and applies x ↦ 1 / (1 + exp (-x)).
  Read element by element this is `Nhp.resR` of the argument arrays: entry (h, 0) of the result is
    logistic ((∑ d, (∑ n, w n h / (∑ k, w k h) * hid n d) * wScore d) + bScore),
  with every sum kept as a sum over its whole index range. The two branches apply the same
  operations to two pairs of feature arrays, so one reading serves both.
-/
import proofs.«140477_g5806795784444_cont_9to1c4b_204_8_alg».proof.Defs
import proofs.«140477_g5806795784444_cont_9to1c4b_204_8_alg».proof.Proof.Gen.ReferenceIdeal.Run
import proofs.«140477_g5806795784444_cont_9to1c4b_204_8_alg».proof.Proof.Gen.ReferenceIdeal.Read
import proofs.«140477_g5806795784444_cont_9to1c4b_204_8_alg».proof.Proof.NhpSpec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The single-precision word of 1.0 has significand 2^23 and exponent zero: its value is 2^23 / 2^23 = 1. -/
theorem one_f32 : Ideal.ofBits .f32 0x3F800000#32 = 1 := by
  simp [Ideal.ofBits, Ideal.ieee]
  rw [← EReal.coe_mul]
  norm_num

/-! ## The normalised incidence matrix -/

/-- Dropping the leading unit axis of the mask: entry (n, h) of the matrix is entry (0, n, h) of the array. -/
theorem mask_at (x4 : (⟨S1x16384x1024, .f32⟩ : BufTy).Contents (Elt Ideal)) (n : Fin 16384) (h : Fin 1024) :
    val_main_v0 (F := Ideal) x4 (ix2 n h) = x4 (ix3 0 n h) := by
  rw [val_main_v0_apply]
  have hn := n.isLt
  have hh := h.isLt
  exact congrArg x4 (funext fun a => Fin.ext (by
    match a with
    | ⟨0, _⟩ => rfl
    | ⟨1, _⟩ => show (n.val * 1024 + h.val) / 1024 % 16384 = n.val; omega
    | ⟨2, _⟩ => show (n.val * 1024 + h.val) % 1024 = h.val; omega))

/-- The column sums: the reduction over the node axis starts from zero and adds column h of the mask. -/
theorem colsum_at (x4 : (⟨S1x16384x1024, .f32⟩ : BufTy).Contents (Elt Ideal)) (h : Fin 1024) :
    val_main_v1 (F := Ideal) x4 (ix1 h) = ∑ n : Fin 16384, x4 (ix3 0 n h) := by
  rw [val_main_v1_apply, val_main_cst_apply, Ideal.ofBits_def, Ideal.ofBits_zero_f32, zero_add]
  refine Finset.sum_congr rfl fun n _ => ?_
  have e : idx_main_v1 (ix1 h) n = ix2 n h :=
    funext fun a => Fin.ext (by match a with | ⟨0, _⟩ => rfl | ⟨1, _⟩ => rfl)
  rw [e, mask_at]

/-- Entry (n, h) of the normalised mask: the weight over its column's sum. -/
theorem norm_at (x4 : (⟨S1x16384x1024, .f32⟩ : BufTy).Contents (Elt Ideal)) (n : Fin 16384) (h : Fin 1024) :
    val_main_v4 (F := Ideal) x4 (ix2 n h) = Ideal.div (x4 (ix3 0 n h)) (∑ k : Fin 16384, x4 (ix3 0 k h)) := by
  rw [val_main_v4_apply, Ideal.hostDivf_def, mask_at, val_main_v3_apply, val_main_v2_apply]
  have e : idx_main_v2 (idx_main_v3 (ix2 n h)) = ix1 h :=
    funext fun a => Fin.ext (by match a with | ⟨0, _⟩ => rfl)
  rw [e, colsum_at]

/-- The transposed normalised mask at (h, n) is the normalised mask at (n, h). -/
theorem normT_at (x4 : (⟨S1x16384x1024, .f32⟩ : BufTy).Contents (Elt Ideal)) (h : Fin 1024) (n : Fin 16384) :
    val_main_v17 (F := Ideal) x4 (ix2 h n) = Ideal.div (x4 (ix3 0 n h)) (∑ k : Fin 16384, x4 (ix3 0 k h)) := by
  rw [val_main_v17_apply]
  have e : idx_main_v17 (ix2 h n) = ix2 n h :=
    funext fun a => Fin.ext (by match a with | ⟨0, _⟩ => rfl | ⟨1, _⟩ => rfl)
  rw [e, norm_at]

/-! ## The hidden units -/

/-- Dropping the leading unit axis of a feature array. -/
theorem feat_at (x : (⟨S1x16384x512, .f32⟩ : BufTy).Contents (Elt Ideal)) (n : Fin 16384) (k : Fin 512) :
    val_main_v5 (F := Ideal) x (ix2 n k) = x (ix3 0 n k) := by
  rw [val_main_v5_apply]
  have hn := n.isLt
  have hk := k.isLt
  exact congrArg x (funext fun a => Fin.ext (by
    match a with
    | ⟨0, _⟩ => rfl
    | ⟨1, _⟩ => show (n.val * 512 + k.val) / 512 % 16384 = n.val; omega
    | ⟨2, _⟩ => show (n.val * 512 + k.val) % 512 = k.val; omega))

/-- A row of features against a column of weights. -/
theorem prod_at (x : (⟨S1x16384x512, .f32⟩ : BufTy).Contents (Elt Ideal)) (w : (⟨S512x512, .f32⟩ : BufTy).Contents (Elt Ideal))
    (n : Fin 16384) (d : Fin 512) :
    val_main_v7 (F := Ideal) x w (ix2 n d) = ∑ k : Fin 512, x (ix3 0 n k) * w (ix2 k d) := by
  rw [val_main_v7_apply]
  refine Finset.sum_congr rfl fun k _ => ?_
  have el : lidx_main_v7 (ix2 n d) k = ix2 n k :=
    funext fun a => Fin.ext (by match a with | ⟨0, _⟩ => rfl | ⟨1, _⟩ => rfl)
  have er : ridx_main_v7 (ix2 n d) k = ix2 k d :=
    funext fun a => Fin.ext (by match a with | ⟨0, _⟩ => rfl | ⟨1, _⟩ => rfl)
  rw [el, er, feat_at]

/-- A bias vector spread over the rows. -/
theorem bias_at (b : (⟨S512, .f32⟩ : BufTy).Contents (Elt Ideal)) (n : Fin 16384) (d : Fin 512) :
    val_main_v9 (F := Ideal) b (ix2 n d) = b (ix1 d) := by
  rw [val_main_v9_apply, val_main_v8_apply]
  exact congrArg b (funext fun a => Fin.ext (by match a with | ⟨0, _⟩ => rfl))

/-- The second product and the second bias are the same operations as the first. -/
theorem prod2_eq (x : (⟨S1x16384x512, .f32⟩ : BufTy).Contents (Elt Ideal)) (w : (⟨S512x512, .f32⟩ : BufTy).Contents (Elt Ideal)) :
    val_main_v11 (F := Ideal) x w = val_main_v7 (F := Ideal) x w := rfl
theorem bias2_eq (b : (⟨S512, .f32⟩ : BufTy).Contents (Elt Ideal)) :
    val_main_v13 (F := Ideal) b = val_main_v9 (F := Ideal) b := rfl

/-- Hidden unit d of node n: each product with its own bias, summed, clipped below at zero. -/
theorem hid_at (x0 x1 : (⟨S1x16384x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (n : Fin 16384) (d : Fin 512) :
    val_main_v16 (F := Ideal) x0 x1 x5 x6 x7 x8 (ix2 n d)
      = Nhp.hidR (Nhp.mat3 x0) (Nhp.mat3 x1) (Nhp.mat2 x5) (Nhp.mat2 x7) (Nhp.vec1 x6) (Nhp.vec1 x8) n d := by
  unfold Nhp.hidR Nhp.mat3 Nhp.mat2 Nhp.vec1
  rw [val_main_v16_apply, val_main_v15_apply, val_main_v10_apply, val_main_v14_apply, prod2_eq, bias2_eq,
    prod_at, prod_at, bias_at, bias_at, val_main_call0_v0_apply, val_main_call0_cst_apply, Ideal.ofBits_def,
    Ideal.ofBits_zero_f32, Ideal.maximumf_def, Ideal.addf_def, Ideal.addf_def, Ideal.addf_def]

/-! ## The two contractions and the logistic function -/

/-- Hyperlink h's weighted average of hidden unit d. -/
theorem avg_at (x0 x1 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (h : Fin 1024) (d : Fin 512) :
    val_main_v18 (F := Ideal) x0 x1 x4 x5 x6 x7 x8 (ix2 h d)
      = ∑ n : Fin 16384, Ideal.div (x4 (ix3 0 n h)) (∑ k : Fin 16384, x4 (ix3 0 k h))
          * Nhp.hidR (Nhp.mat3 x0) (Nhp.mat3 x1) (Nhp.mat2 x5) (Nhp.mat2 x7) (Nhp.vec1 x6) (Nhp.vec1 x8) n d := by
  rw [val_main_v18_apply]
  refine Finset.sum_congr rfl fun n _ => ?_
  have el : lidx_main_v18 (ix2 h d) n = ix2 h n :=
    funext fun a => Fin.ext (by match a with | ⟨0, _⟩ => rfl | ⟨1, _⟩ => rfl)
  have er : ridx_main_v18 (ix2 h d) n = ix2 n d :=
    funext fun a => Fin.ext (by match a with | ⟨0, _⟩ => rfl | ⟨1, _⟩ => rfl)
  rw [el, er, normT_at, hid_at]

/-- The average projected on the score vector. -/
theorem proj_at (x0 x1 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x1, .f32⟩ : BufTy).Contents (Elt Ideal)) (h : Fin 1024) :
    val_main_v19 (F := Ideal) x0 x1 x4 x5 x6 x7 x8 x9 (ix2 h 0)
      = ∑ d : Fin 512, (∑ n : Fin 16384, Ideal.div (x4 (ix3 0 n h)) (∑ k : Fin 16384, x4 (ix3 0 k h))
          * Nhp.hidR (Nhp.mat3 x0) (Nhp.mat3 x1) (Nhp.mat2 x5) (Nhp.mat2 x7) (Nhp.vec1 x6) (Nhp.vec1 x8) n d) * x9 (ix2 d 0) := by
  rw [val_main_v19_apply]
  refine Finset.sum_congr rfl fun d _ => ?_
  have el : lidx_main_v19 (ix2 h 0) d = ix2 h d :=
    funext fun a => Fin.ext (by match a with | ⟨0, _⟩ => rfl | ⟨1, _⟩ => rfl)
  have er : ridx_main_v19 (ix2 h 0) d = ix2 d 0 :=
    funext fun a => Fin.ext (by match a with | ⟨0, _⟩ => rfl | ⟨1, _⟩ => rfl)
  rw [el, er, avg_at]

/-- The score bias spread over the hyperlinks. -/
theorem sbias_at (x10 : (⟨S1, .f32⟩ : BufTy).Contents (Elt Ideal)) (h : Fin 1024) :
    val_main_v21 (F := Ideal) x10 (ix2 h 0) = x10 (ix1 0) := by
  rw [val_main_v21_apply, val_main_v20_apply]
  exact congrArg x10 (funext fun a => Fin.ext (by match a with | ⟨0, _⟩ => rfl))

/-- The reference's first result is the specification's: 1 / (1 + exp (-x)) is the logistic function of x. -/
theorem val28 (x0 x1 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x1, .f32⟩ : BufTy).Contents (Elt Ideal)) (x10 : (⟨S1, .f32⟩ : BufTy).Contents (Elt Ideal)) :
    val_main_v28 (F := Ideal) x0 x1 x4 x5 x6 x7 x8 x9 x10 = Nhp.resR x0 x1 x4 x5 x6 x7 x8 x9 x10 := by
  funext i
  obtain ⟨h, z, rfl⟩ : ∃ (h : Fin 1024) (z : Fin 1), i = ix2 h z := ⟨i 0, i 1, eq_ix2 i⟩
  obtain rfl : z = 0 := Subsingleton.elim _ _
  rw [val_main_v28_apply, val_main_v27_apply, val_main_cst_1_apply, val_main_v26_apply, val_main_v25_apply,
    val_main_cst_0_apply, val_main_v24_apply, val_main_v23_apply, val_main_v22_apply, proj_at, sbias_at,
    Ideal.ofBits_def, one_f32, Ideal.hostDivf_def, Ideal.addf_def, Ideal.addf_def, Ideal.hostUnary_exp_def,
    Ideal.hostNegf_def, Ideal.negf_def]
  rfl

/-- The second branch is the first branch's term at the second pair of feature arrays. -/
theorem val52 (x2 x3 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x1, .f32⟩ : BufTy).Contents (Elt Ideal)) (x10 : (⟨S1, .f32⟩ : BufTy).Contents (Elt Ideal)) :
    val_main_v52 (F := Ideal) x2 x3 x4 x5 x6 x7 x8 x9 x10 = Nhp.resR x2 x3 x4 x5 x6 x7 x8 x9 x10 :=
  ((val_main_v52_eq x2 x3 x4 x5 x6 x7 x8 x9 x10).symm.trans (val_main_v28_eq x2 x3 x4 x5 x6 x7 x8 x9 x10)).trans
    (val28 x2 x3 x4 x5 x6 x7 x8 x9 x10)

/-! ## The run -/

/-- Every weakly fair execution of the reference ends with both results at the specification's value of the
    launch contents of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Nhp.resR (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v52) = Nhp.resR (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h28, h52, hargs⟩ := h c
    refine ⟨?_, ?_, hargs⟩
    · rw [h28, val_main_v28_eq, val28]
    · rw [h52, val_main_v52_eq, val52])
    (Cert.ReferenceIdeal.Value.run (F := Ideal) m ρ)

end Cert.ReferenceIdeal.RefValue

end
-- ==== Proof.PreDecode.lean ====
/-
  What the precondition says.

  The precondition is the conjunction of twelve tests. Eleven of them, one per argument array x, are
  "every |x i| is below +inf"; the twelfth is "no column of the [16384, 1024] incidence matrix sums to zero".
  Each test is a conjunction over all entries of an array of truth values, so a test that came out true
  holds at every entry.

  * An extended real x with max x (-x) < ⊤ is neither ⊤ nor ⊥, so it is a real.
  * The sum over the first axis of the matrix, read at column h, is zero plus the sum over n of the entry
    (n, h); the matrix is the [1, 16384, 1024] array with its leading unit axis dropped, so entry (n, h) is
    the array's entry (0, n, h), and the sum is the column sum of the specification.
-/
import proofs.«140477_g5806795784444_cont_9to1c4b_204_8_alg».proof.Pre_finite_inputs
import proofs.«140477_g5806795784444_cont_9to1c4b_204_8_alg».proof.Proof.NhpSpec
import Idealize.ShloMosaic.Lib.ReduceAll
import Idealize.ShloMosaic.PureOps.Ideal.Laws
import Idealize.ShloMosaic.Lib.ValueIdx
import Idealize.ShloMosaic.Lib.ValueLayout
import Idealize.ShloMosaic.Lib.IdealHost

noncomputable section

open scoped BigOperators

namespace Cert.Pre_finite_inputs.Decode

open Idealize.ShloMosaic Idealize.ShloMosaic.ValueIdx

/-- The scalar shape has one index. -/
instance : Subsingleton S_.Idx := ⟨fun a b => funext fun d => d.elim0⟩

/-- The f32 pattern of +inf is the top element. -/
theorem ofBits_inf : Ideal.ofBits .f32 0x7F800000#32 = (⊤ : EReal) := by simp [Ideal.ofBits, Ideal.ieee]

/-- An extended real whose absolute value is below +inf is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A comparison for inequality that came out 1 compared two different values. -/
theorem ne_of_cmp_une (x y : EReal) (h : Ideal.cmp .une x y = 1#1) : x ≠ y := by
  intro e
  simp [Ideal.cmp, e] at h

/-- jnp.all(|x| < +inf) at any shape: every entry is a real. -/
theorem all_finite {s : Shape} {axes : List (Fin s.rank)} (x : FVec Ideal s .f32) (bc : S_.BroadcastsInDim s (![] : Fin 0 → Fin s.rank))
    (red : s.ReducesTo axes S_) (hu : 0 < S_.numel)
    (e : Host.reduce IntOp.andi (cmpf .olt (Host.absf x) (broadcastInDim s ![] bc (constant (F := Ideal) S_ .f32 0x7F800000#32)))
      (constantI S_ 1 1#1) red hu ix0 = 1#1) (i : s.Idx) : ∃ r : ℝ, x i = (r : EReal) :=
  real_of_abs_lt (x i) (Host.reduce_andi_all _ _ red hu ix0 e i)

/-- A comparison of two arrays read at an index compares the two entries. -/
theorem cmpf_apply {s : Shape} (p : CmpFPredicate) (x y : FVec Ideal s .f32) (i : s.Idx) :
    cmpf p x y i = Ideal.cmp p (x i) (y i) := rfl

/-- The host's sum over the rows of the [1, 16384, 1024] array, read at column h, is the column sum of its matrix. -/
theorem colsum_eq (x4 : FVec Ideal S1x16384x1024 .f32) (sc : S1x16384x1024.ShapeCasts S16384x1024)
    (red : S16384x1024.ReducesTo [0] S1024) (hu : 0 < S_.numel) (h : Fin 1024) :
    Host.reduceAdd (shapeCast S16384x1024 x4 sc) (constant (F := Ideal) S_ .f32 0x00000000#32) red hu (ix1 h)
      = Nhp.colsum (Nhp.mat3 x4) h := by
  have hR : S16384x1024.Reduces [0] S1024 := by decide
  rw [hostReduceAdd_apply, Ideal.hostReduceAdd_single red hR]
  show Ideal.ofBits .f32 0x00000000#32 + _ = _
  rw [Ideal.ofBits_zero_f32, zero_add]
  unfold Nhp.colsum Nhp.mat3
  refine Finset.sum_congr rfl fun k _ => ?_
  have e : hR.lift (ix1 h) k = ix2 k h := by
    funext c; match c with | ⟨0, _⟩ => rfl | ⟨1, _⟩ => rfl
  rw [e]; exact shapeCast_1ab_ab_apply x4 sc k h

/-- jnp.all(jnp.sum(mask[0], axis=0) != 0): no column sum is zero. -/
theorem all_colsum_ne (x4 : FVec Ideal S1x16384x1024 .f32) (sc : S1x16384x1024.ShapeCasts S16384x1024)
    (red : S16384x1024.ReducesTo [0] S1024) (bc : S_.BroadcastsInDim S1024 (![] : Fin 0 → Fin S1024.rank))
    (red' : S1024.ReducesTo [0] S_) (hu : 0 < S_.numel)
    (e : Host.reduce IntOp.andi
      (cmpf .une (Host.reduceAdd (shapeCast S16384x1024 x4 sc) (constant (F := Ideal) S_ .f32 0x00000000#32) red hu)
        (broadcastInDim S1024 ![] bc (constant (F := Ideal) S_ .f32 0x00000000#32)))
      (constantI S_ 1 1#1) red' hu ix0 = 1#1) (h : Fin 1024) : Nhp.colsum (Nhp.mat3 x4) h ≠ 0 := by
  have e1 := Host.reduce_andi_all _ _ red' hu ix0 e (ix1 h)
  rw [cmpf_apply, broadcastInDim_scalar_apply, colsum_eq] at e1
  have e2 := ne_of_cmp_une _ _ e1
  exact fun h0 => e2 (h0.trans Ideal.ofBits_zero_f32.symm)

variable [Facts]

/-- The conjunction of two i1 scalars read at the one index. -/
theorem andi_ix0 (x y : IVec S_ 1) : Idealize.ShloMosaic.andi x y ix0 = IntOp.andi (x ix0) (y ix0) := rfl

/-- What the printed precondition says: every entry of the first ten arguments is a real, and no column of the
    incidence matrix sums to zero. -/
theorem of_pre (x0 x1 x2 x3 : FVec Ideal S1x16384x512 .f32) (x4 : FVec Ideal S1x16384x1024 .f32) (x5 : FVec Ideal S512x512 .f32)
    (x6 : FVec Ideal S512 .f32) (x7 : FVec Ideal S512x512 .f32) (x8 : FVec Ideal S512 .f32) (x9 : FVec Ideal S512x1 .f32)
    (x10 : FVec Ideal S1 .f32)
    (h : Cert.Pre_finite_inputs.fn (F := Ideal) x0 x1 x2 x3 x4 x5 x6 x7 x8 x9 x10 = (fun _ => 1#1)) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) ∧ (∀ h : Fin 1024, Nhp.colsum (Nhp.mat3 x4) h ≠ 0) := by
  have h0 := congrFun h ix0
  dsimp only [fn, fn_part1, fn_part2, fn_part3] at h0
  simp only [andi_ix0, IntOp.andi_eq_one] at h0
  obtain ⟨⟨⟨⟨⟨⟨⟨⟨⟨⟨⟨e0, e1⟩, e2⟩, e3⟩, e4⟩, e5⟩, e6⟩, e7⟩, e8⟩, e9⟩, _⟩, e11⟩ := h0
  exact ⟨all_finite x0 _ _ _ e0, all_finite x1 _ _ _ e1, all_finite x2 _ _ _ e2, all_finite x3 _ _ _ e3,
    all_finite x4 _ _ _ e4, all_finite x5 _ _ _ e5, all_finite x6 _ _ _ e6, all_finite x7 _ _ _ e7,
    all_finite x8 _ _ _ e8, all_finite x9 _ _ _ e9, all_colsum_ne x4 _ _ _ _ _ e11⟩

/-- The last argument, the score bias, is a real as well. -/
theorem of_pre_bias (x0 x1 x2 x3 : FVec Ideal S1x16384x512 .f32) (x4 : FVec Ideal S1x16384x1024 .f32) (x5 : FVec Ideal S512x512 .f32)
    (x6 : FVec Ideal S512 .f32) (x7 : FVec Ideal S512x512 .f32) (x8 : FVec Ideal S512 .f32) (x9 : FVec Ideal S512x1 .f32)
    (x10 : FVec Ideal S1 .f32)
    (h : Cert.Pre_finite_inputs.fn (F := Ideal) x0 x1 x2 x3 x4 x5 x6 x7 x8 x9 x10 = (fun _ => 1#1)) :
    ∀ i, ∃ r : ℝ, x10 i = (r : EReal) := by
  have h0 := congrFun h ix0
  dsimp only [fn, fn_part1, fn_part2, fn_part3] at h0
  simp only [andi_ix0, IntOp.andi_eq_one] at h0
  exact all_finite x10 _ _ _ h0.1.2

end Cert.Pre_finite_inputs.Decode

end
-- ==== Proof.NhpBridge.lean ====
/-
  The kernel's formula and the reference's formula agree over the reals.

  Three facts carry the proof. (1) The kernel's sum over eight blocks of 2048 rows is the sum
  over all 16384 rows, because (block, row in block) ↦ block · 2048 + row is a bijection.
  (2) The two groupings of the bias sum agree by commutativity and associativity of addition.
  (3) With real entries and a column sum c ≠ 0,
        (∑ n, b n · ∑ d, hid n d · W d) / c = ∑ d, (∑ n, (b n / c) · hid n d) · W d,
  which is distributivity and an exchange of the two finite sums in ℝ.
-/
import proofs.«140477_g5806795784444_cont_9to1c4b_204_8_alg».proof.Proof.NhpSpec
import Mathlib.Data.EReal.Basic
import Mathlib.Data.Fintype.BigOperators
import Mathlib.Algebra.BigOperators.Ring.Finset
import Mathlib.Algebra.BigOperators.Group.Finset.Sigma
import Mathlib.Tactic.Ring

noncomputable section

open scoped BigOperators

namespace Nhp

open Idealize.ShloMosaic Idealize.ShloMosaic.ValueIdx

namespace Bridge

/-! ## Extended reals that are reals -/

/-- The extended real x is (the image of) a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) {f : ι → EReal} (hf : ∀ i, IsReal (f i)) :
    IsReal (∑ i ∈ s, f i) := by
  choose g hg using hf
  exact ⟨∑ i ∈ s, g i, by rw [coe_sum]; exact Finset.sum_congr rfl fun i _ => hg i⟩

/-! ## The identity in ℝ, over abstract finite index types -/

theorem real_average {ι κ : Type*} [Fintype ι] [Fintype κ] (b : ι → ℝ) (hid : ι → κ → ℝ)
    (w : κ → ℝ) (c : ℝ) :
    (∑ n, b n * ∑ d, hid n d * w d) * (1 / c) = ∑ d, (∑ n, b n * (1 / c) * hid n d) * w d := by
  rw [Finset.sum_mul]
  simp only [Finset.mul_sum, Finset.sum_mul]
  rw [Finset.sum_comm]
  refine Finset.sum_congr rfl fun d _ => Finset.sum_congr rfl fun n _ => ?_
  ring

/-- The same identity on extended reals whose entries are reals: a weighted sum of projected
vectors divided by the sum of the weights is the projection of the normalised average. -/
theorem div_sum_eq {ι κ : Type*} [Fintype ι] [Fintype κ] (B : ι → EReal) (H : ι → κ → EReal)
    (W : κ → EReal) (hB : ∀ n, IsReal (B n)) (hH : ∀ n d, IsReal (H n d)) (hW : ∀ d, IsReal (W d))
    (hc : ∑ n, B n ≠ 0) :
    Ideal.div (∑ n, B n * ∑ d, H n d * W d) (∑ n, B n)
      = ∑ d, (∑ n, Ideal.div (B n) (∑ m, B m) * H n d) * W d := by
  choose b hb using hB
  choose hid hhid using hH
  choose w hw using hW
  obtain rfl : B = fun n => (b n : EReal) := funext hb
  obtain rfl : H = fun n d => (hid n d : EReal) := funext fun n => funext fun d => hhid n d
  obtain rfl : W = fun d => (w d : EReal) := funext hw
  have hsum : (∑ n, (b n : EReal)) = ((∑ n, b n : ℝ) : EReal) := (coe_sum _ _).symm
  simp only [hsum] at hc ⊢
  have hc' : (∑ n, b n) ≠ 0 := EReal.coe_ne_zero.1 hc
  simp only [Ideal.div_coe hc', ← EReal.coe_mul, ← coe_sum]
  exact congrArg _ (real_average b hid w _)

/-! ## The block sum is the full sum -/

/-- (block, row in block) ↦ block · 2048 + row, as a bijection onto the 16384 rows. -/
def rowEquiv : Fin 8 × Fin 2048 ≃ Fin 16384 where
  toFun p := rowOf p.1 p.2
  invFun n := (⟨n.val / 2048, by omega⟩, ⟨n.val % 2048, by omega⟩)
  left_inv := by
    rintro ⟨⟨b, hb⟩, ⟨r, hr⟩⟩
    refine Prod.ext (Fin.ext ?_) (Fin.ext ?_)
    · show (b * 2048 + r) / 2048 = b
      omega
    · show (b * 2048 + r) % 2048 = r
      omega
  right_inv := by
    rintro ⟨n, hn⟩
    refine Fin.ext ?_
    show n / 2048 * 2048 + n % 2048 = n
    omega

theorem sum_blocks (f : Fin 16384 → EReal) :
    (∑ b : Fin 8, ∑ r : Fin 2048, f (rowOf b r)) = ∑ n, f n := by
  rw [← Fintype.sum_prod_type' (fun b r => f (rowOf b r))]
  exact rowEquiv.sum_comp f

theorem accK_eq_sum (bm : Mat 16384 1024) (s : Fin 16384 → EReal) (h : Fin 1024) :
    accK bm s h = ∑ n, bm n h * s n :=
  sum_blocks fun n => bm n h * s n

theorem accK_one (bm : Mat 16384 1024) (h : Fin 1024) : accK bm (fun _ => 1) h = colsum bm h := by
  rw [accK_eq_sum]
  simp only [mul_one, colsum]

/-! ## The two hidden layers agree -/

theorem hidK_eq_hidR (feat mat : Mat 16384 512) (Ws Wh : Mat 512 512) (bs bh : Fin 512 → EReal)
    (n : Fin 16384) (d : Fin 512) :
    hidK feat mat Ws Wh bs bh n d = hidR feat mat Ws Wh bs bh n d := by
  unfold hidK hidR
  rw [add_add_add_comm]

theorem isReal_hidR {feat mat : Mat 16384 512} {Ws Wh : Mat 512 512} {bs bh : Fin 512 → EReal}
    (hf : ∀ n k, IsReal (feat n k)) (hm : ∀ n k, IsReal (mat n k))
    (hWs : ∀ k d, IsReal (Ws k d)) (hWh : ∀ k d, IsReal (Wh k d))
    (hbs : ∀ d, IsReal (bs d)) (hbh : ∀ d, IsReal (bh d)) (n : Fin 16384) (d : Fin 512) :
    IsReal (hidR feat mat Ws Wh bs bh n d) :=
  IsReal.max
    (IsReal.add
      (IsReal.add (isReal_sum _ fun k => (hf n k).mul (hWs k d)) (hbs d))
      (IsReal.add (isReal_sum _ fun k => (hm n k).mul (hWh k d)) (hbh d)))
    isReal_zero

/-! ## The two scores agree -/

theorem scoreK_eq_scoreR {feat mat : Mat 16384 512} {Ws Wh : Mat 512 512} {bs bh : Fin 512 → EReal}
    {Wsc : Fin 512 → EReal} {bm : Mat 16384 1024} (bsc : EReal)
    (hf : ∀ n k, IsReal (feat n k)) (hm : ∀ n k, IsReal (mat n k))
    (hWs : ∀ k d, IsReal (Ws k d)) (hWh : ∀ k d, IsReal (Wh k d))
    (hbs : ∀ d, IsReal (bs d)) (hbh : ∀ d, IsReal (bh d)) (hWsc : ∀ d, IsReal (Wsc d))
    (hbm : ∀ n h, IsReal (bm n h)) (h : Fin 1024) (hc : colsum bm h ≠ 0) :
    scoreK feat mat Ws Wh bs bh Wsc bm bsc h = scoreR feat mat Ws Wh bs bh Wsc bm bsc h := by
  unfold scoreK scoreR
  rw [accK_one, accK_eq_sum]
  have hsc : ∀ n, scK feat mat Ws Wh bs bh Wsc n = ∑ d, hidR feat mat Ws Wh bs bh n d * Wsc d := by
    intro n
    unfold scK
    exact Finset.sum_congr rfl fun d _ => by rw [hidK_eq_hidR]
  simp only [hsc]
  unfold colsum at hc ⊢
  rw [div_sum_eq (fun n => bm n h) (hidR feat mat Ws Wh bs bh) Wsc (fun n => hbm n h)
    (isReal_hidR hf hm hWs hWh hbs hbh) hWsc hc]

end Bridge

/-- The kernel's result array is the reference's, for real entries and nonzero column sums. -/
theorem bridge
    {feat mat : (⟨3, ![1, 16384, 512]⟩ : Shape).Idx → EReal} {mask : (⟨3, ![1, 16384, 1024]⟩ : Shape).Idx → EReal}
    {wSelf : (⟨2, ![512, 512]⟩ : Shape).Idx → EReal} {bSelf : (⟨1, ![512]⟩ : Shape).Idx → EReal}
    {wHyper : (⟨2, ![512, 512]⟩ : Shape).Idx → EReal} {bHyper : (⟨1, ![512]⟩ : Shape).Idx → EReal}
    {wScore : (⟨2, ![512, 1]⟩ : Shape).Idx → EReal} (bScore : (⟨1, ![1]⟩ : Shape).Idx → EReal)
    (hfeat : ∀ i, ∃ r : ℝ, feat i = (r : EReal)) (hmat : ∀ i, ∃ r : ℝ, mat i = (r : EReal))
    (hmask : ∀ i, ∃ r : ℝ, mask i = (r : EReal)) (hwSelf : ∀ i, ∃ r : ℝ, wSelf i = (r : EReal))
    (hbSelf : ∀ i, ∃ r : ℝ, bSelf i = (r : EReal)) (hwHyper : ∀ i, ∃ r : ℝ, wHyper i = (r : EReal))
    (hbHyper : ∀ i, ∃ r : ℝ, bHyper i = (r : EReal)) (hwScore : ∀ i, ∃ r : ℝ, wScore i = (r : EReal))
    (hcs : ∀ h : Fin 1024, colsum (mat3 mask) h ≠ 0) :
    resK feat mat mask wSelf bSelf wHyper bHyper wScore bScore = resR feat mat mask wSelf bSelf wHyper bHyper wScore bScore := by
  funext i
  exact Bridge.scoreK_eq_scoreR (bScore (ix1 0)) (fun n k => hfeat _) (fun n k => hmat _)
    (fun k d => hwSelf _) (fun k d => hwHyper _) (fun d => hbSelf _) (fun d => hbHyper _)
    (fun d => hwScore _) (fun n h => hmask _) (i 0) (hcs (i 0))

end Nhp

end
-- ==== Proof.lean ====
/-
  The certificate of the hyperlink-scoring kernel against its reference.

  For each of two branches (positive, negative) a node n has the hidden vector
  relu(feat·W_self + mat·W_hyper + b_self + b_hyper), and hyperlink h scores
  logistic(⟨average over the nodes of h of the hidden vectors, W_score⟩ + b_score), the average weighted by
  column h of the incidence matrix divided by that column's sum.

  The reference computes exactly that: it divides the incidence matrix by its column sums, multiplies its
  transpose into the [16384, 512] hidden matrix and projects on W_score. The kernel projects first: one scalar
  per node; it accumulates, over eight blocks of 2048 rows, the incidence columns against the two scalars and
  against the constant one, and divides at the last grid point. Over the reals the two are one number as soon as
  the column sum is not zero, by linearity of the projection and of the average (Nhp.bridge). Where a column sum
  IS zero both programs divide by zero and, over the extended reals, they part (at the all-zero input the kernel
  ends at logistic(0/0 + b) = 0 and the reference at logistic(0) = 1/2): the precondition therefore asks, beside
  finite inputs, that no column of the incidence matrix sums to zero, which is where the reference itself is
  defined.

  The kernel's side is read off its run: what one grid point adds to the accumulator at an entry (KValue), the
  running sums by induction on the point and the single write-back of the whole [1024, 4] array (KRun), each
  window's block in terms of the arguments (KBlocks). The reference's side is its straight-line run read at an
  entry (RefValue). The precondition is decoded to "every entry is a real" and "no column sum is zero"
  (PreDecode). `preserves` states nothing: the idealization rewrote no operation.
-/
import proofs.«140477_g5806795784444_cont_9to1c4b_204_8_alg».proof.Defs
import proofs.«140477_g5806795784444_cont_9to1c4b_204_8_alg».proof.Proof.Gen.Kernel
import proofs.«140477_g5806795784444_cont_9to1c4b_204_8_alg».proof.Proof.Gen.Kernel.Frame
import proofs.«140477_g5806795784444_cont_9to1c4b_204_8_alg».proof.Proof.Gen.KernelIdeal
import proofs.«140477_g5806795784444_cont_9to1c4b_204_8_alg».proof.Proof.Gen.KernelIdeal.Frame
import proofs.«140477_g5806795784444_cont_9to1c4b_204_8_alg».proof.Proof.Gen.ReferenceIdeal
import proofs.«140477_g5806795784444_cont_9to1c4b_204_8_alg».proof.Proof.Gen.Pre_finite_inputs
import proofs.«140477_g5806795784444_cont_9to1c4b_204_8_alg».proof.Proof.KRun
import proofs.«140477_g5806795784444_cont_9to1c4b_204_8_alg».proof.Proof.RefValue
import proofs.«140477_g5806795784444_cont_9to1c4b_204_8_alg».proof.Proof.PreDecode
import proofs.«140477_g5806795784444_cont_9to1c4b_204_8_alg».proof.Proof.NhpBridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results forgotten. -/
theorem frame_ri : Cert.frame_ReferenceIdeal := fun m ρ _ =>
  (θ_run Cert.ReferenceIdeal.defs _ _).mono (fun _ h c => (h c).2.2) (Cert.ReferenceIdeal.RefValue.run m ρ)

/-- Both programs end at the same two score vectors: the kernel's grouping of the sums and the reference's
    agree on real inputs whose incidence columns do not sum to zero. -/
theorem algebraic : Cert.algebraic_KernelIdeal_ReferenceIdeal := by
  intro m ρ m' ρ' hpre hagree
  refine ⟨fun c => Nhp.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Nhp.resK (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KVal.run m ρ, ?_⟩
  refine (θ_run Cert.ReferenceIdeal.defs _ _).mono (fun _ h c => ?_) (Cert.ReferenceIdeal.RefValue.run m' ρ')
  obtain ⟨e0, e1, e2, e3, e4, e5, e6, e7, e8, e9, e10⟩ := hagree c
  obtain ⟨p0, p1, p2, p3, p4, p5, p6, p7, p8, p9, pcs⟩ := Cert.Pre_finite_inputs.Decode.of_pre _ _ _ _ _ _ _ _ _ _ _ (hpre c)
  refine ⟨(h c).1.trans ?_, (h c).2.1.trans ?_, (h c).2.2⟩
  · rw [e0, e1, e4, e5, e6, e7, e8, e9, e10]
    exact (Nhp.bridge _ p0 p1 p4 p5 p6 p7 p8 p9 pcs).symm
  · rw [e2, e3, e4, e5, e6, e7, e8, e9, e10]
    exact (Nhp.bridge _ p2 p3 p4 p5 p6 p7 p8 p9 pcs).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
